-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x128 : Shape := ⟨4, ![32, 128, 128, 128]⟩
abbrev S128x4 : Shape := ⟨2, ![128, 4]⟩
abbrev S4 : Shape := ⟨1, ![4]⟩
abbrev S_ : Shape := ⟨0, ![]⟩

class Facts : Prop where
  bcast_S_S32x128x128x128 : S_.BroadcastsInDim S32x128x128x128 (![] : Fin 0 → Fin S32x128x128x128.rank)
  reducesTo_S32x128x128x128_S_d0_1_2_3 : S32x128x128x128.ReducesTo [0, 1, 2, 3] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S32x128x128x128 .f32) (main_arg1 : FVec F S128x4 .f32) (main_arg2 : FVec F S4 .f32) : IVec S_ 1 :=
  let main_v0 : FVec F S32x128x128x128 .f32 := Host.absf main_arg0
  let main_cst : FVec F S_ .f32 := constant S_ .f32 0x7F800000#32
  let main_v1 : FVec F S32x128x128x128 .f32 := broadcastInDim S32x128x128x128 ![] bcast_S_S32x128x128x128 main_cst
  let main_v2 : IVec S32x128x128x128 1 := cmpf .olt main_v0 main_v1
  let main_c : IVec S_ 1 := constantI S_ 1 1#1
  let main_v3 : IVec S_ 1 := (fun x v => Host.reduce IntOp.andi x v reducesTo_S32x128x128x128_S_d0_1_2_3 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S32x128x128x128 : Shape := ⟨4, ![32, 128, 128, 128]⟩
abbrev S128x4 : Shape := ⟨2, ![128, 4]⟩
abbrev S4 : Shape := ⟨1, ![4]⟩
abbrev S4x128 : Shape := ⟨2, ![4, 128]⟩
abbrev S1x4 : Shape := ⟨2, ![1, 4]⟩
abbrev S1x128x128x128 : Shape := ⟨4, ![1, 128, 128, 128]⟩
abbrev S128 : Shape := ⟨1, ![128]⟩
abbrev S1x32x128x128 : Shape := ⟨4, ![1, 32, 128, 128]⟩
abbrev S32x128x128 : Shape := ⟨3, ![32, 128, 128]⟩
abbrev S1x128 : Shape := ⟨2, ![1, 128]⟩
abbrev S1x1 : Shape := ⟨2, ![1, 1]⟩
abbrev S1 : Shape := ⟨1, ![1]⟩
abbrev S4x8x128x128 : Shape := ⟨4, ![4, 8, 128, 128]⟩
abbrev S4x1x128x128 : Shape := ⟨4, ![4, 1, 128, 128]⟩
abbrev S1x8x128x128 : Shape := ⟨4, ![1, 8, 128, 128]⟩
abbrev S32x16x8x128 : Shape := ⟨4, ![32, 16, 8, 128]⟩
abbrev S32x16x1x128 : Shape := ⟨4, ![32, 16, 1, 128]⟩
abbrev S32x1x8x128 : Shape := ⟨4, ![32, 1, 8, 128]⟩
abbrev S1x128x32x128 : Shape := ⟨4, ![1, 128, 32, 128]⟩
abbrev S128x32x128 : Shape := ⟨3, ![128, 32, 128]⟩
abbrev S128x4x8x128 : Shape := ⟨4, ![128, 4, 8, 128]⟩
abbrev S128x4x1x128 : Shape := ⟨4, ![128, 4, 1, 128]⟩
abbrev S128x1x8x128 : Shape := ⟨4, ![128, 1, 8, 128]⟩
abbrev S16x8x32x128 : Shape := ⟨4, ![16, 8, 32, 128]⟩
abbrev S16x1x32x128 : Shape := ⟨4, ![16, 1, 32, 128]⟩
abbrev S1x8x32x128 : Shape := ⟨4, ![1, 8, 32, 128]⟩

abbrev nBuf : Space → Nat
  | .hbm => 6
  | .vmem => 6
  | .smem => 0
  | _ => 0

abbrev bufTy : (tb : Table) → Fin (tcTables nBuf tb) → BufTy
  | .hbm, ⟨0, _⟩ => ⟨S32x128x128x128, .f32⟩
  | .hbm, ⟨1, _⟩ => ⟨S128x4, .f32⟩
  | .hbm, ⟨2, _⟩ => ⟨S4, .f32⟩
  | .hbm, ⟨3, _⟩ => ⟨S4x128, .f32⟩
  | .hbm, ⟨4, _⟩ => ⟨S1x4, .f32⟩
  | .hbm, ⟨5, _⟩ => ⟨S32x128x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S4x128, .f32⟩
  | .local _ .vmem, ⟨3, _⟩ => ⟨S1x4, .f32⟩
  | .local _ .vmem, ⟨4, _⟩ => ⟨S1x128x128x128, .f32⟩
  | .local _ .vmem, ⟨5, _⟩ => ⟨S1x128x128x128, .f32⟩
  | _, _ => ⟨S32x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c32_i32 : BitVec 32 := 32#32
  let v1 : BitVec 32 := Scalar.muli c0_i32 c32_i32
  v1
def k0_off1 (c0_i32 : BitVec 32) : Fin 4 → Nat :=
  let c0 : Index := 0#32
  let c32_i32 : BitVec 32 := 32#32
  let v1 : BitVec 32 := Scalar.muli c0_i32 c32_i32
  let v2 : BitVec 32 := v1
  let v3 : Index := Scalar.indexCast v2
  let c0_0 : Index := 0#32
  let c0_1 : Index := 0#32
  ![0, v3.toNat, 0, 0]
def k0_mult2 : BitVec 32 :=
  let c1_i32 : BitVec 32 := 1#32
  let c32_i32_3 : BitVec 32 := 32#32
  let v8 : BitVec 32 := Scalar.muli c1_i32 c32_i32_3
  v8
def k0_mult3 : BitVec 32 :=
  let c2_i32 : BitVec 32 := 2#32
  let c32_i32_8 : BitVec 32 := 32#32
  let v15 : BitVec 32 := Scalar.muli c2_i32 c32_i32_8
  v15
def k0_mult4 : BitVec 32 :=
  let c3_i32 : BitVec 32 := 3#32
  let c32_i32_13 : BitVec 32 := 32#32
  let v22 : BitVec 32 := Scalar.muli c3_i32 c32_i32_13
  v22
def k0_mult5 : BitVec 32 :=
  let c0_i32_27 : BitVec 32 := 0#32
  let c32_i32_28 : BitVec 32 := 32#32
  let v82 : BitVec 32 := Scalar.muli c0_i32_27 c32_i32_28
  v82
def k0_mult6 : BitVec 32 :=
  let c96_i32 : BitVec 32 := 96#32
  let c0_i32_27 : BitVec 32 := 0#32
  let c32_i32_28 : BitVec 32 := 32#32
  let v82 : BitVec 32 := Scalar.muli c0_i32_27 c32_i32_28
  let v83 : BitVec 32 := v82
  let v84 : BitVec 32 := Scalar.subi c96_i32 v83
  v84
def k0_mult7 : BitVec 32 :=
  let c96_i32_29 : BitVec 32 := 96#32
  let c0_i32_27 : BitVec 32 := 0#32
  let c32_i32_28 : BitVec 32 := 32#32
  let v82 : BitVec 32 := Scalar.muli c0_i32_27 c32_i32_28
  let v83 : BitVec 32 := v82
  let v86 : BitVec 32 := Scalar.subi c96_i32_29 v83
  v86
def k0_off2 (c0_i32_27 : BitVec 32) : Fin 4 → Nat :=
  let c0_33 : Index := 0#32
  let c96_i32 : BitVec 32 := 96#32
  let c32_i32_28 : BitVec 32 := 32#32
  let v82 : BitVec 32 := Scalar.muli c0_i32_27 c32_i32_28
  let v83 : BitVec 32 := v82
  let v84 : BitVec 32 := Scalar.subi c96_i32 v83
  let v85 : BitVec 32 := v84
  let v91 : Index := Scalar.indexCast v85
  let c0_34 : Index := 0#32
  let c0_35 : Index := 0#32
  ![0, v91.toNat, 0, 0]
def k0_off3 (c0_i32_27 : BitVec 32) : Fin 4 → Nat :=
  let c0_36 : Index := 0#32
  let c0_37 : Index := 0#32
  let c96_i32_29 : BitVec 32 := 96#32
  let c32_i32_28 : BitVec 32 := 32#32
  let v82 : BitVec 32 := Scalar.muli c0_i32_27 c32_i32_28
  let v83 : BitVec 32 := v82
  let v86 : BitVec 32 := Scalar.subi c96_i32_29 v83
  let v87 : BitVec 32 := v86
  let v138 : Index := Scalar.indexCast v87
  let c0_38 : Index := 0#32
  ![0, 0, v138.toNat, 0]
def k0_off4 (c0_i32_27 : BitVec 32) : Fin 4 → Nat :=
  let c0_39 : Index := 0#32
  let c0_40 : Index := 0#32
  let c32_i32_28 : BitVec 32 := 32#32
  let v82 : BitVec 32 := Scalar.muli c0_i32_27 c32_i32_28
  let v83 : BitVec 32 := v82
  let v157 : Index := Scalar.indexCast v83
  let c0_41 : Index := 0#32
  ![0, 0, v157.toNat, 0]
def k0_mult8 : BitVec 32 :=
  let c1_i32_45 : BitVec 32 := 1#32
  let c32_i32_46 : BitVec 32 := 32#32
  let v204 : BitVec 32 := Scalar.muli c1_i32_45 c32_i32_46
  v204
def k0_mult9 : BitVec 32 :=
  let c96_i32_47 : BitVec 32 := 96#32
  let c1_i32_45 : BitVec 32 := 1#32
  let c32_i32_46 : BitVec 32 := 32#32
  let v204 : BitVec 32 := Scalar.muli c1_i32_45 c32_i32_46
  let v205 : BitVec 32 := v204
  let v206 : BitVec 32 := Scalar.subi c96_i32_47 v205
  v206
def k0_mult10 : BitVec 32 :=
  let c96_i32_48 : BitVec 32 := 96#32
  let c1_i32_45 : BitVec 32 := 1#32
  let c32_i32_46 : BitVec 32 := 32#32
  let v204 : BitVec 32 := Scalar.muli c1_i32_45 c32_i32_46
  let v205 : BitVec 32 := v204
  let v208 : BitVec 32 := Scalar.subi c96_i32_48 v205
  v208
def k0_mult11 : BitVec 32 :=
  let c2_i32_64 : BitVec 32 := 2#32
  let c32_i32_65 : BitVec 32 := 32#32
  let v326 : BitVec 32 := Scalar.muli c2_i32_64 c32_i32_65
  v326
def k0_mult12 : BitVec 32 :=
  let c96_i32_66 : BitVec 32 := 96#32
  let c2_i32_64 : BitVec 32 := 2#32
  let c32_i32_65 : BitVec 32 := 32#32
  let v326 : BitVec 32 := Scalar.muli c2_i32_64 c32_i32_65
  let v327 : BitVec 32 := v326
  let v328 : BitVec 32 := Scalar.subi c96_i32_66 v327
  v328
def k0_mult13 : BitVec 32 :=
  let c96_i32_67 : BitVec 32 := 96#32
  let c2_i32_64 : BitVec 32 := 2#32
  let c32_i32_65 : BitVec 32 := 32#32
  let v326 : BitVec 32 := Scalar.muli c2_i32_64 c32_i32_65
  let v327 : BitVec 32 := v326
  let v330 : BitVec 32 := Scalar.subi c96_i32_67 v327
  v330
def k0_mult14 : BitVec 32 :=
  let c3_i32_83 : BitVec 32 := 3#32
  let c32_i32_84 : BitVec 32 := 32#32
  let v448 : BitVec 32 := Scalar.muli c3_i32_83 c32_i32_84
  v448
def k0_mult15 : BitVec 32 :=
  let c96_i32_85 : BitVec 32 := 96#32
  let c3_i32_83 : BitVec 32 := 3#32
  let c32_i32_84 : BitVec 32 := 32#32
  let v448 : BitVec 32 := Scalar.muli c3_i32_83 c32_i32_84
  let v449 : BitVec 32 := v448
  let v450 : BitVec 32 := Scalar.subi c96_i32_85 v449
  v450
def k0_mult16 : BitVec 32 :=
  let c96_i32_86 : BitVec 32 := 96#32
  let c3_i32_83 : BitVec 32 := 3#32
  let c32_i32_84 : BitVec 32 := 32#32
  let v448 : BitVec 32 := Scalar.muli c3_i32_83 c32_i32_84
  let v449 : BitVec 32 := v448
  let v452 : BitVec 32 := Scalar.subi c96_i32_86 v449
  v452
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x4_S4x128_1_0 : S128x4.Transposes [1, 0] S4x128
  shapeCasts_S4_S1x4 : S4.ShapeCasts S1x4
  h_S1x32x128x128 : 0 < S1x32x128x128.numel
  shapeCasts_S1x32x128x128_S32x128x128 : S1x32x128x128.ShapeCasts S32x128x128
  reduces_S32x128x128_S128 : S32x128x128.Reduces [0, 1] S128
  shapeCasts_S128_S1x128 : S128.ShapeCasts S1x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x4_S1x4_0_0 : ∀ a, (![0, 0] : Fin 2 → Nat) a + S1x4.size a ≤ S1x4.size a
  h_S1x4 : 0 < S1x4.numel
  shapeCasts_S1x4_S1x4 : S1x4.ShapeCasts S1x4
  slices_S4x128_o0_0_S1x128 : S4x128.Slices ![0, 0] S1x128
  slices_S1x4_o0_0_S1x1 : S1x4.Slices ![0, 0] S1x1
  reduces_S1x128_S1 : S1x128.Reduces [1] S1
  shapeCasts_S1_S1x1 : S1.ShapeCasts S1x1
  slices_S4x128_o1_0_S1x128 : S4x128.Slices ![1, 0] S1x128
  slices_S1x4_o0_1_S1x1 : S1x4.Slices ![0, 1] S1x1
  slices_S4x128_o2_0_S1x128 : S4x128.Slices ![2, 0] S1x128
  slices_S1x4_o0_2_S1x1 : S1x4.Slices ![0, 2] S1x1
  slices_S4x128_o3_0_S1x128 : S4x128.Slices ![3, 0] S1x128
  slices_S1x4_o0_3_S1x1 : S1x4.Slices ![0, 3] S1x1
  inpos_S1x1_p0_0 : ∀ a, (![0, 0] : Fin 2 → Nat) a < S1x1.size a
  shapeCasts_S32x128x128_S4x8x128x128 : S32x128x128.ShapeCasts S4x8x128x128
  slices_S4x8x128x128_o0_7_0_0_S4x1x128x128 : S4x8x128x128.Slices ![0, 7, 0, 0] S4x1x128x128
  slices_S4x8x128x128_o0_6_0_0_S4x1x128x128 : S4x8x128x128.Slices ![0, 6, 0, 0] S4x1x128x128
  slices_S4x8x128x128_o0_5_0_0_S4x1x128x128 : S4x8x128x128.Slices ![0, 5, 0, 0] S4x1x128x128
  slices_S4x8x128x128_o0_4_0_0_S4x1x128x128 : S4x8x128x128.Slices ![0, 4, 0, 0] S4x1x128x128
  slices_S4x8x128x128_o0_3_0_0_S4x1x128x128 : S4x8x128x128.Slices ![0, 3, 0, 0] S4x1x128x128
  slices_S4x8x128x128_o0_2_0_0_S4x1x128x128 : S4x8x128x128.Slices ![0, 2, 0, 0] S4x1x128x128
  slices_S4x8x128x128_o0_1_0_0_S4x1x128x128 : S4x8x128x128.Slices ![0, 1, 0, 0] S4x1x128x128
  slices_S4x8x128x128_o0_0_0_0_S4x1x128x128 : S4x8x128x128.Slices ![0, 0, 0, 0] S4x1x128x128
  concatenates_S4x1x128x128_S4x1x128x128_S4x1x128x128_S4x1x128x128_S4x1x128x128_S4x1x128x128_S4x1x128x128_S4x1x128x128_S4x8x128x128_d1 : Shape.Concatenates [S4x1x128x128, S4x1x128x128, S4x1x128x128, S4x1x128x128, S4x1x128x128, S4x1x128x128, S4x1x128x128, S4x1x128x128] S4x8x128x128 1
  slices_S4x8x128x128_o3_0_0_0_S1x8x128x128 : S4x8x128x128.Slices ![3, 0, 0, 0] S1x8x128x128
  slices_S4x8x128x128_o2_0_0_0_S1x8x128x128 : S4x8x128x128.Slices ![2, 0, 0, 0] S1x8x128x128
  slices_S4x8x128x128_o1_0_0_0_S1x8x128x128 : S4x8x128x128.Slices ![1, 0, 0, 0] S1x8x128x128
  slices_S4x8x128x128_o0_0_0_0_S1x8x128x128 : S4x8x128x128.Slices ![0, 0, 0, 0] S1x8x128x128
  concatenates_S1x8x128x128_S1x8x128x128_S1x8x128x128_S1x8x128x128_S4x8x128x128_d0 : Shape.Concatenates [S1x8x128x128, S1x8x128x128, S1x8x128x128, S1x8x128x128] S4x8x128x128 0
  shapeCasts_S4x8x128x128_S32x128x128 : S4x8x128x128.ShapeCasts S32x128x128
  shapeCasts_S32x128x128_S32x16x8x128 : S32x128x128.ShapeCasts S32x16x8x128
  slices_S32x16x8x128_o0_0_7_0_S32x16x1x128 : S32x16x8x128.Slices ![0, 0, 7, 0] S32x16x1x128
  slices_S32x16x8x128_o0_0_6_0_S32x16x1x128 : S32x16x8x128.Slices ![0, 0, 6, 0] S32x16x1x128
  slices_S32x16x8x128_o0_0_5_0_S32x16x1x128 : S32x16x8x128.Slices ![0, 0, 5, 0] S32x16x1x128
  slices_S32x16x8x128_o0_0_4_0_S32x16x1x128 : S32x16x8x128.Slices ![0, 0, 4, 0] S32x16x1x128
  slices_S32x16x8x128_o0_0_3_0_S32x16x1x128 : S32x16x8x128.Slices ![0, 0, 3, 0] S32x16x1x128
  slices_S32x16x8x128_o0_0_2_0_S32x16x1x128 : S32x16x8x128.Slices ![0, 0, 2, 0] S32x16x1x128
  slices_S32x16x8x128_o0_0_1_0_S32x16x1x128 : S32x16x8x128.Slices ![0, 0, 1, 0] S32x16x1x128
  slices_S32x16x8x128_o0_0_0_0_S32x16x1x128 : S32x16x8x128.Slices ![0, 0, 0, 0] S32x16x1x128
  concatenates_S32x16x1x128_S32x16x1x128_S32x16x1x128_S32x16x1x128_S32x16x1x128_S32x16x1x128_S32x16x1x128_S32x16x1x128_S32x16x8x128_d2 : Shape.Concatenates [S32x16x1x128, S32x16x1x128, S32x16x1x128, S32x16x1x128, S32x16x1x128, S32x16x1x128, S32x16x1x128, S32x16x1x128] S32x16x8x128 2
  slices_S32x16x8x128_o0_15_0_0_S32x1x8x128 : S32x16x8x128.Slices ![0, 15, 0, 0] S32x1x8x128
  slices_S32x16x8x128_o0_14_0_0_S32x1x8x128 : S32x16x8x128.Slices ![0, 14, 0, 0] S32x1x8x128
  slices_S32x16x8x128_o0_13_0_0_S32x1x8x128 : S32x16x8x128.Slices ![0, 13, 0, 0] S32x1x8x128
  slices_S32x16x8x128_o0_12_0_0_S32x1x8x128 : S32x16x8x128.Slices ![0, 12, 0, 0] S32x1x8x128
  slices_S32x16x8x128_o0_11_0_0_S32x1x8x128 : S32x16x8x128.Slices ![0, 11, 0, 0] S32x1x8x128
  slices_S32x16x8x128_o0_10_0_0_S32x1x8x128 : S32x16x8x128.Slices ![0, 10, 0, 0] S32x1x8x128
  slices_S32x16x8x128_o0_9_0_0_S32x1x8x128 : S32x16x8x128.Slices ![0, 9, 0, 0] S32x1x8x128
  slices_S32x16x8x128_o0_8_0_0_S32x1x8x128 : S32x16x8x128.Slices ![0, 8, 0, 0] S32x1x8x128
  slices_S32x16x8x128_o0_7_0_0_S32x1x8x128 : S32x16x8x128.Slices ![0, 7, 0, 0] S32x1x8x128
  slices_S32x16x8x128_o0_6_0_0_S32x1x8x128 : S32x16x8x128.Slices ![0, 6, 0, 0] S32x1x8x128
  slices_S32x16x8x128_o0_5_0_0_S32x1x8x128 : S32x16x8x128.Slices ![0, 5, 0, 0] S32x1x8x128
  slices_S32x16x8x128_o0_4_0_0_S32x1x8x128 : S32x16x8x128.Slices ![0, 4, 0, 0] S32x1x8x128
  slices_S32x16x8x128_o0_3_0_0_S32x1x8x128 : S32x16x8x128.Slices ![0, 3, 0, 0] S32x1x8x128
  slices_S32x16x8x128_o0_2_0_0_S32x1x8x128 : S32x16x8x128.Slices ![0, 2, 0, 0] S32x1x8x128
  slices_S32x16x8x128_o0_1_0_0_S32x1x8x128 : S32x16x8x128.Slices ![0, 1, 0, 0] S32x1x8x128
  slices_S32x16x8x128_o0_0_0_0_S32x1x8x128 : S32x16x8x128.Slices ![0, 0, 0, 0] S32x1x8x128
  concatenates_S32x1x8x128_S32x1x8x128_S32x1x8x128_S32x1x8x128_S32x1x8x128_S32x1x8x128_S32x1x8x128_S32x1x8x128_S32x1x8x128_S32x1x8x128_S32x1x8x128_S32x1x8x128_S32x1x8x128_S32x1x8x128_S32x1x8x128_S32x1x8x128_S32x16x8x128_d1 : Shape.Concatenates [S32x1x8x128, S32x1x8x128, S32x1x8x128, S32x1x8x128, S32x1x8x128, S32x1x8x128, S32x1x8x128, S32x1x8x128, S32x1x8x128, S32x1x8x128, S32x1x8x128, S32x1x8x128, S32x1x8x128, S32x1x8x128, S32x1x8x128, S32x1x8x128] S32x16x8x128 1
  shapeCasts_S32x16x8x128_S32x128x128 : S32x16x8x128.ShapeCasts S32x128x128
  h_S1x128x32x128 : 0 < S1x128x32x128.numel
  shapeCasts_S1x128x32x128_S128x32x128 : S1x128x32x128.ShapeCasts S128x32x128
  shapeCasts_S128x32x128_S128x4x8x128 : S128x32x128.ShapeCasts S128x4x8x128
  slices_S128x4x8x128_o0_0_7_0_S128x4x1x128 : S128x4x8x128.Slices ![0, 0, 7, 0] S128x4x1x128
  slices_S128x4x8x128_o0_0_6_0_S128x4x1x128 : S128x4x8x128.Slices ![0, 0, 6, 0] S128x4x1x128
  slices_S128x4x8x128_o0_0_5_0_S128x4x1x128 : S128x4x8x128.Slices ![0, 0, 5, 0] S128x4x1x128
  slices_S128x4x8x128_o0_0_4_0_S128x4x1x128 : S128x4x8x128.Slices ![0, 0, 4, 0] S128x4x1x128
  slices_S128x4x8x128_o0_0_3_0_S128x4x1x128 : S128x4x8x128.Slices ![0, 0, 3, 0] S128x4x1x128
  slices_S128x4x8x128_o0_0_2_0_S128x4x1x128 : S128x4x8x128.Slices ![0, 0, 2, 0] S128x4x1x128
  slices_S128x4x8x128_o0_0_1_0_S128x4x1x128 : S128x4x8x128.Slices ![0, 0, 1, 0] S128x4x1x128
  slices_S128x4x8x128_o0_0_0_0_S128x4x1x128 : S128x4x8x128.Slices ![0, 0, 0, 0] S128x4x1x128
  concatenates_S128x4x1x128_S128x4x1x128_S128x4x1x128_S128x4x1x128_S128x4x1x128_S128x4x1x128_S128x4x1x128_S128x4x1x128_S128x4x8x128_d2 : Shape.Concatenates [S128x4x1x128, S128x4x1x128, S128x4x1x128, S128x4x1x128, S128x4x1x128, S128x4x1x128, S128x4x1x128, S128x4x1x128] S128x4x8x128 2
  slices_S128x4x8x128_o0_3_0_0_S128x1x8x128 : S128x4x8x128.Slices ![0, 3, 0, 0] S128x1x8x128
  slices_S128x4x8x128_o0_2_0_0_S128x1x8x128 : S128x4x8x128.Slices ![0, 2, 0, 0] S128x1x8x128
  slices_S128x4x8x128_o0_1_0_0_S128x1x8x128 : S128x4x8x128.Slices ![0, 1, 0, 0] S128x1x8x128
  slices_S128x4x8x128_o0_0_0_0_S128x1x8x128 : S128x4x8x128.Slices ![0, 0, 0, 0] S128x1x8x128
  concatenates_S128x1x8x128_S128x1x8x128_S128x1x8x128_S128x1x8x128_S128x4x8x128_d1 : Shape.Concatenates [S128x1x8x128, S128x1x8x128, S128x1x8x128, S128x1x8x128] S128x4x8x128 1
  shapeCasts_S128x4x8x128_S128x32x128 : S128x4x8x128.ShapeCasts S128x32x128
  shapeCasts_S128x32x128_S16x8x32x128 : S128x32x128.ShapeCasts S16x8x32x128
  slices_S16x8x32x128_o0_7_0_0_S16x1x32x128 : S16x8x32x128.Slices ![0, 7, 0, 0] S16x1x32x128
  slices_S16x8x32x128_o0_6_0_0_S16x1x32x128 : S16x8x32x128.Slices ![0, 6, 0, 0] S16x1x32x128
  slices_S16x8x32x128_o0_5_0_0_S16x1x32x128 : S16x8x32x128.Slices ![0, 5, 0, 0] S16x1x32x128
  slices_S16x8x32x128_o0_4_0_0_S16x1x32x128 : S16x8x32x128.Slices ![0, 4, 0, 0] S16x1x32x128
  slices_S16x8x32x128_o0_3_0_0_S16x1x32x128 : S16x8x32x128.Slices ![0, 3, 0, 0] S16x1x32x128
  slices_S16x8x32x128_o0_2_0_0_S16x1x32x128 : S16x8x32x128.Slices ![0, 2, 0, 0] S16x1x32x128
  slices_S16x8x32x128_o0_1_0_0_S16x1x32x128 : S16x8x32x128.Slices ![0, 1, 0, 0] S16x1x32x128
  slices_S16x8x32x128_o0_0_0_0_S16x1x32x128 : S16x8x32x128.Slices ![0, 0, 0, 0] S16x1x32x128
  concatenates_S16x1x32x128_S16x1x32x128_S16x1x32x128_S16x1x32x128_S16x1x32x128_S16x1x32x128_S16x1x32x128_S16x1x32x128_S16x8x32x128_d1 : Shape.Concatenates [S16x1x32x128, S16x1x32x128, S16x1x32x128, S16x1x32x128, S16x1x32x128, S16x1x32x128, S16x1x32x128, S16x1x32x128] S16x8x32x128 1
  slices_S16x8x32x128_o15_0_0_0_S1x8x32x128 : S16x8x32x128.Slices ![15, 0, 0, 0] S1x8x32x128
  slices_S16x8x32x128_o14_0_0_0_S1x8x32x128 : S16x8x32x128.Slices ![14, 0, 0, 0] S1x8x32x128
  slices_S16x8x32x128_o13_0_0_0_S1x8x32x128 : S16x8x32x128.Slices ![13, 0, 0, 0] S1x8x32x128
  slices_S16x8x32x128_o12_0_0_0_S1x8x32x128 : S16x8x32x128.Slices ![12, 0, 0, 0] S1x8x32x128
  slices_S16x8x32x128_o11_0_0_0_S1x8x32x128 : S16x8x32x128.Slices ![11, 0, 0, 0] S1x8x32x128
  slices_S16x8x32x128_o10_0_0_0_S1x8x32x128 : S16x8x32x128.Slices ![10, 0, 0, 0] S1x8x32x128
  slices_S16x8x32x128_o9_0_0_0_S1x8x32x128 : S16x8x32x128.Slices ![9, 0, 0, 0] S1x8x32x128
  slices_S16x8x32x128_o8_0_0_0_S1x8x32x128 : S16x8x32x128.Slices ![8, 0, 0, 0] S1x8x32x128
  slices_S16x8x32x128_o7_0_0_0_S1x8x32x128 : S16x8x32x128.Slices ![7, 0, 0, 0] S1x8x32x128
  slices_S16x8x32x128_o6_0_0_0_S1x8x32x128 : S16x8x32x128.Slices ![6, 0, 0, 0] S1x8x32x128
  slices_S16x8x32x128_o5_0_0_0_S1x8x32x128 : S16x8x32x128.Slices ![5, 0, 0, 0] S1x8x32x128
  slices_S16x8x32x128_o4_0_0_0_S1x8x32x128 : S16x8x32x128.Slices ![4, 0, 0, 0] S1x8x32x128
  slices_S16x8x32x128_o3_0_0_0_S1x8x32x128 : S16x8x32x128.Slices ![3, 0, 0, 0] S1x8x32x128
  slices_S16x8x32x128_o2_0_0_0_S1x8x32x128 : S16x8x32x128.Slices ![2, 0, 0, 0] S1x8x32x128
  slices_S16x8x32x128_o1_0_0_0_S1x8x32x128 : S16x8x32x128.Slices ![1, 0, 0, 0] S1x8x32x128
  slices_S16x8x32x128_o0_0_0_0_S1x8x32x128 : S16x8x32x128.Slices ![0, 0, 0, 0] S1x8x32x128
  concatenates_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S16x8x32x128_d0 : Shape.Concatenates [S1x8x32x128, S1x8x32x128, S1x8x32x128, S1x8x32x128, S1x8x32x128, S1x8x32x128, S1x8x32x128, S1x8x32x128, S1x8x32x128, S1x8x32x128, S1x8x32x128, S1x8x32x128, S1x8x32x128, S1x8x32x128, S1x8x32x128, S1x8x32x128] S16x8x32x128 0
  shapeCasts_S16x8x32x128_S128x32x128 : S16x8x32x128.ShapeCasts S128x32x128
  transposes_S128x32x128_p1_0_2_S32x128x128 : S128x32x128.Transposes [1, 0, 2] S32x128x128
  shapeCasts_S32x128x128_S1x32x128x128 : S32x128x128.ShapeCasts S1x32x128x128
  hrank0 : 0 < grid0.rank
  k0_mult1_dvd : 32 ∣ k0_mult1.toNat
  k0_off1_inb : ∀ (r : Fin 4), ∀ a, (k0_off1 (BitVec.ofNat 32 r.val)) a + S1x32x128x128.size a ≤ S1x128x128x128.size a
  k0_mult2_dvd : 32 ∣ k0_mult2.toNat
  k0_mult3_dvd : 32 ∣ k0_mult3.toNat
  k0_mult4_dvd : 32 ∣ k0_mult4.toNat
  k0_mult5_dvd : 32 ∣ k0_mult5.toNat
  k0_mult6_dvd : 32 ∣ k0_mult6.toNat
  k0_mult7_dvd : 32 ∣ k0_mult7.toNat
  k0_off2_inb : ∀ (r : Fin 4), ∀ a, (k0_off2 (BitVec.ofNat 32 r.val)) a + S1x32x128x128.size a ≤ S1x128x128x128.size a
  k0_off3_inb : ∀ (r : Fin 4), ∀ a, (k0_off3 (BitVec.ofNat 32 r.val)) a + S1x128x32x128.size a ≤ S1x128x128x128.size a
  k0_off4_inb : ∀ (r : Fin 4), ∀ a, (k0_off4 (BitVec.ofNat 32 r.val)) a + S1x128x32x128.size a ≤ S1x128x128x128.size a
  k0_mult8_dvd : 32 ∣ k0_mult8.toNat
  k0_mult9_dvd : 32 ∣ k0_mult9.toNat
  k0_mult10_dvd : 32 ∣ k0_mult10.toNat
  k0_mult11_dvd : 32 ∣ k0_mult11.toNat
  k0_mult12_dvd : 32 ∣ k0_mult12.toNat
  k0_mult13_dvd : 32 ∣ k0_mult13.toNat
  k0_mult14_dvd : 32 ∣ k0_mult14.toNat
  k0_mult15_dvd : 32 ∣ k0_mult15.toNat
  k0_mult16_dvd : 32 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S32x128x128x128.size a
  hwx0_0 : ∀ i : grid0.Coords, EltTy.bits .f32 = 32 ∨ (Rect.block (s := S32x128x128x128) S1x128x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128x128.size a ≤ S32x128x128x128.size a
  hwx0_3 : ∀ i : grid0.Coords, EltTy.bits .f32 = 32 ∨ (Rect.block (s := S32x128x128x128) S1x128x128x128.size (cc0_transform_3 i) (hinb0_3 i)).WholeWords (EltTy.packing .f32)

variable [Facts₀]

abbrev win0_0 : Pipeline.Window sig grid0 :=
  Pipeline.Window.ofSpec (Memref.whole main_arg0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x128x128 : Shape := ⟨4, ![32, 128, 128, 128]⟩
abbrev S128x4 : Shape := ⟨2, ![128, 4]⟩
abbrev S4 : Shape := ⟨1, ![4]⟩
abbrev S_ : Shape := ⟨0, ![]⟩
abbrev S32x128 : Shape := ⟨2, ![32, 128]⟩
abbrev S32x4 : Shape := ⟨2, ![32, 4]⟩
abbrev S1x4 : Shape := ⟨2, ![1, 4]⟩
abbrev S32 : Shape := ⟨1, ![32]⟩
abbrev S32x1 : Shape := ⟨2, ![32, 1]⟩
abbrev S32x1x1x1 : Shape := ⟨4, ![32, 1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S32x128x128x128, .f32⟩
  | .hbm, ⟨1, _⟩ => ⟨S128x4, .f32⟩
  | .hbm, ⟨2, _⟩ => ⟨S4, .f32⟩
  | .hbm, ⟨3, _⟩ => ⟨S_, .f32⟩
  | .hbm, ⟨4, _⟩ => ⟨S32x128, .f32⟩
  | .hbm, ⟨5, _⟩ => ⟨S_, .f32⟩
  | .hbm, ⟨6, _⟩ => ⟨S32x128, .f32⟩
  | .hbm, ⟨7, _⟩ => ⟨S32x128, .f32⟩
  | .hbm, ⟨8, _⟩ => ⟨S32x4, .f32⟩
  | .hbm, ⟨9, _⟩ => ⟨S1x4, .f32⟩
  | .hbm, ⟨10, _⟩ => ⟨S32x4, .f32⟩
  | .hbm, ⟨11, _⟩ => ⟨S32x4, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S32x4, .f32⟩
  | .hbm, ⟨19, _⟩ => ⟨S32x4, .f32⟩
  | .hbm, ⟨20, _⟩ => ⟨S32x4, .f32⟩
  | .hbm, ⟨21, _⟩ => ⟨S_, .f32⟩
  | .hbm, ⟨22, _⟩ => ⟨S32, .f32⟩
  | .hbm, ⟨23, _⟩ => ⟨S32x1, .f32⟩
  | .hbm, ⟨24, _⟩ => ⟨S32x4, .f32⟩
  | .hbm, ⟨25, _⟩ => ⟨S32x4, .f32⟩
  | .hbm, ⟨26, _⟩ => ⟨S_, .f32⟩
  | .hbm, ⟨27, _⟩ => ⟨S32x128x128x128, .f32⟩
  | .hbm, ⟨28, _⟩ => ⟨S32x1, .f32⟩
  | .hbm, ⟨29, _⟩ => ⟨S32, .f32⟩
  | .hbm, ⟨30, _⟩ => ⟨S32x1x1x1, .f32⟩
  | .hbm, ⟨31, _⟩ => ⟨S32x128x128x128, .f32⟩
  | .hbm, ⟨32, _⟩ => ⟨S32x128x128x128, .f32⟩
  | .hbm, ⟨33, _⟩ => ⟨S32x128x128x128, .f32⟩
  | .hbm, ⟨34, _⟩ => ⟨S32x128x128x128, .f32⟩
  | .hbm, ⟨35, _⟩ => ⟨S32x128x128x128, .f32⟩
  | .hbm, ⟨36, _⟩ => ⟨S32x1, .f32⟩
  | .hbm, ⟨37, _⟩ => ⟨S32, .f32⟩
  | .hbm, ⟨38, _⟩ => ⟨S32x1x1x1, .f32⟩
  | .hbm, ⟨39, _⟩ => ⟨S32x128x128x128, .f32⟩
  | .hbm, ⟨40, _⟩ => ⟨S32x128x128x128, .f32⟩
  | .hbm, ⟨41, _⟩ => ⟨S32x128x128x128, .f32⟩
  | .hbm, ⟨42, _⟩ => ⟨S32x128x128x128, .f32⟩
  | .hbm, ⟨43, _⟩ => ⟨S32x128x128x128, .f32⟩
  | .hbm, ⟨44, _⟩ => ⟨S32x1, .f32⟩
  | .hbm, ⟨45, _⟩ => ⟨S32, .f32⟩
  | .hbm, ⟨46, _⟩ => ⟨S32x1x1x1, .f32⟩
  | .hbm, ⟨47, _⟩ => ⟨S32x128x128x128, .f32⟩
  | .hbm, ⟨48, _⟩ => ⟨S32x128x128x128, .f32⟩
  | .hbm, ⟨49, _⟩ => ⟨S32x128x128x128, .f32⟩
  | .hbm, ⟨50, _⟩ => ⟨S32x128x128x128, .f32⟩
  | .hbm, ⟨51, _⟩ => ⟨S32x128x128x128, .f32⟩
  | .hbm, ⟨52, _⟩ => ⟨S32x1, .f32⟩
  | .hbm, ⟨53, _⟩ => ⟨S32, .f32⟩
  | .hbm, ⟨54, _⟩ => ⟨S32x1x1x1, .f32⟩
  | .hbm, ⟨55, _⟩ => ⟨S32x128x128x128, .f32⟩
  | .hbm, ⟨56, _⟩ => ⟨S32x128x128x128, .f32⟩
  | .hbm, ⟨57, _⟩ => ⟨S32x128x128x128, .f32⟩
  | _, _ => ⟨S32x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call2_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call3_v0 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]

class Facts₀ : Prop where
  reducesTo_S32x128x128x128_S32x128_d1_2 : S32x128x128x128.ReducesTo [1, 2] S32x128
  h_S_ : 0 < S_.numel
  bcast_S_S32x128 : S_.BroadcastsInDim S32x128 (![] : Fin 0 → Fin S32x128.rank)
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  reducesTo_S32x4_S32_d1 : S32x4.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x4_0_1 : S32x1.BroadcastsInDim S32x4 (![0, 1] : Fin 2 → Fin S32x4.rank)
  bcast_S_S32x128x128x128 : S_.BroadcastsInDim S32x128x128x128 (![] : Fin 0 → Fin S32x128x128x128.rank)
  slices_S32x4_S32x1_0_0 : S32x4.Slices ![0, 0] S32x1
  shapeCasts_S32x1_S32 : S32x1.ShapeCasts S32
  bcast_S32_S32x1x1x1_0 : S32.BroadcastsInDim S32x1x1x1 (![0] : Fin 1 → Fin S32x1x1x1.rank)
  bcast_S32x1x1x1_S32x128x128x128_0_1_2_3 : S32x1x1x1.BroadcastsInDim S32x128x128x128 (![0, 1, 2, 3] : Fin 4 → Fin S32x128x128x128.rank)
  transposes_S32x128x128x128_S32x128x128x128_0_2_1_3 : S32x128x128x128.Transposes [0, 2, 1, 3] S32x128x128x128
  slices_S32x4_S32x1_0_1 : S32x4.Slices ![0, 1] S32x1
  slices_S32x4_S32x1_0_2 : S32x4.Slices ![0, 2] S32x1
  slices_S32x4_S32x1_0_3 : S32x4.Slices ![0, 3] S32x1
  dot_S32x128_S128x4_S32x4_1_0_0_1_n_n_wf : DotDims.WF S32x128 S128x4 S32x4 [1] [0] [0] [1] [] []

variable [Facts₀]

def dot_S32x128_S128x4_S32x4_1_0_0_1_n_n : DotDims S32x128 S128x4 S32x4 where
  lhsContracting := [1]
  rhsContracting := [0]
  lhsNonContracting := [0]
  rhsNonContracting := [1]
  lhsBatch := []
  rhsBatch := []
  wf := dot_S32x128_S128x4_S32x4_1_0_0_1_n_n_wf

class Facts : Prop extends Facts₀ where

variable [Facts]
-- ==== Proof.KFlipsRows.lean ====
/-
  The kernel's layout payloads read at an index. A reversal of an axis of 8·g entries is built by the kernel from unit
  slices and concatenations: the axis is split into g groups of 8, the 8 positions inside a group are laid in reverse
  order, then the g groups, and the two axes are merged again; since n - 1 - (8 a + b) = 8 (g - 1 - a) + (7 - b), the
  result at position k is the operand at position n - 1 - k.

  Each concatenation level is read on its own, over a variable operand: N unit slices of an axis, listed from position
  N - 1 down to position 0 and concatenated along that axis, are the operand with that axis reversed (the piece read
  at coordinate c is piece number c, the slice at position N - 1 - c). The payload is then the chain of these levels
  through the shape casts that split and merge the axes, each shape cast read by equating row-major positions.
-/
import proofs.«403186_j78658031059523_4_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.KFlipsRows

open Cert.KernelIdeal Cert.KernelIdeal.Gen Idealize.ShloMosaic Idealize.ShloMosaic.ValueIdx Idealize.SL.Sem

variable {F : FTy → Type} [FloatOps F]

/-- The unit slice at position `7 - n` of axis 1 of a `[4, 8, 128, 128]` array lies inside the array. -/
theorem slices_rowsInner (n : Fin 8) : S4x8x128x128.Slices ![0, 7 - n.val, 0, 0] S4x1x128x128 :=
  ⟨rfl, fun e => match e with
    | ⟨0, _⟩ => by show 0 + 4 ≤ 4; omega
    | ⟨1, _⟩ => by have := n.isLt; show 7 - n.val + 1 ≤ 8; omega
    | ⟨2, _⟩ => by show 0 + 128 ≤ 128; omega
    | ⟨3, _⟩ => by show 0 + 128 ≤ 128; omega⟩

/-- The 8 unit slices of axis 1 of a `[4, 8, 128, 128]` array, laid side by side from the last to the first, are the array with axis 1 reversed. -/
theorem rev_rowsInner (X : FVec F S4x8x128x128 .f32) (a : Fin 4) (b : Fin 8) (c : Fin 128) (d : Fin 128) :
    concatenate S4x8x128x128 1
      [⟨S4x1x128x128, extractStridedSlice S4x1x128x128 ![0, 7, 0, 0] X slices_S4x8x128x128_o0_7_0_0_S4x1x128x128⟩,
       ⟨S4x1x128x128, extractStridedSlice S4x1x128x128 ![0, 6, 0, 0] X slices_S4x8x128x128_o0_6_0_0_S4x1x128x128⟩,
       ⟨S4x1x128x128, extractStridedSlice S4x1x128x128 ![0, 5, 0, 0] X slices_S4x8x128x128_o0_5_0_0_S4x1x128x128⟩,
       ⟨S4x1x128x128, extractStridedSlice S4x1x128x128 ![0, 4, 0, 0] X slices_S4x8x128x128_o0_4_0_0_S4x1x128x128⟩,
       ⟨S4x1x128x128, extractStridedSlice S4x1x128x128 ![0, 3, 0, 0] X slices_S4x8x128x128_o0_3_0_0_S4x1x128x128⟩,
       ⟨S4x1x128x128, extractStridedSlice S4x1x128x128 ![0, 2, 0, 0] X slices_S4x8x128x128_o0_2_0_0_S4x1x128x128⟩,
       ⟨S4x1x128x128, extractStridedSlice S4x1x128x128 ![0, 1, 0, 0] X slices_S4x8x128x128_o0_1_0_0_S4x1x128x128⟩,
       ⟨S4x1x128x128, extractStridedSlice S4x1x128x128 ![0, 0, 0, 0] X slices_S4x8x128x128_o0_0_0_0_S4x1x128x128⟩]
      concatenates_S4x1x128x128_S4x1x128x128_S4x1x128x128_S4x1x128x128_S4x1x128x128_S4x1x128x128_S4x1x128x128_S4x1x128x128_S4x8x128x128_d1
      (ix4 a b c d) = X (ix4 a b.rev c d) := by
  -- the literal list of pieces is the list of the slices at positions 7 - n, n = 0, …, 7; the piece read is the one
  -- the axis coordinate names, and that slice reads the operand at position 7 - (the coordinate)
  refine (concatenate_ofFn_unit_apply (t := S4x8x128x128) (s₁ := S4x1x128x128) 1
    (fun n : Fin 8 => extractStridedSlice S4x1x128x128 ![0, 7 - n.val, 0, 0] X (slices_rowsInner n))
    _ rfl rfl (ix4 a b c d) b rfl (ix4 a 0 c d)
    (fun e he => match e, he with
      | ⟨0, _⟩, _ => rfl
      | ⟨1, _⟩, he => absurd rfl he
      | ⟨2, _⟩, _ => rfl
      | ⟨3, _⟩, _ => rfl)).trans ?_
  exact extractStridedSlice_apply _ _ _ _ _ (fun e => match e with
    | ⟨0, _⟩ => by show a.val = 0 + a.val; omega
    | ⟨1, _⟩ => by have := b.isLt; show 8 - (b.val + 1) = 7 - b.val + 0; omega
    | ⟨2, _⟩ => by show c.val = 0 + c.val; omega
    | ⟨3, _⟩ => by show d.val = 0 + d.val; omega)

/-- The unit slice at position `3 - n` of axis 0 of a `[4, 8, 128, 128]` array lies inside the array. -/
theorem slices_rowsOuter (n : Fin 4) : S4x8x128x128.Slices ![3 - n.val, 0, 0, 0] S1x8x128x128 :=
  ⟨rfl, fun e => match e with
    | ⟨0, _⟩ => by have := n.isLt; show 3 - n.val + 1 ≤ 4; omega
    | ⟨1, _⟩ => by show 0 + 8 ≤ 8; omega
    | ⟨2, _⟩ => by show 0 + 128 ≤ 128; omega
    | ⟨3, _⟩ => by show 0 + 128 ≤ 128; omega⟩

/-- The 4 unit slices of axis 0 of a `[4, 8, 128, 128]` array, laid side by side from the last to the first, are the array with axis 0 reversed. -/
theorem rev_rowsOuter (X : FVec F S4x8x128x128 .f32) (a : Fin 4) (b : Fin 8) (c : Fin 128) (d : Fin 128) :
    concatenate S4x8x128x128 0
      [⟨S1x8x128x128, extractStridedSlice S1x8x128x128 ![3, 0, 0, 0] X slices_S4x8x128x128_o3_0_0_0_S1x8x128x128⟩,
       ⟨S1x8x128x128, extractStridedSlice S1x8x128x128 ![2, 0, 0, 0] X slices_S4x8x128x128_o2_0_0_0_S1x8x128x128⟩,
       ⟨S1x8x128x128, extractStridedSlice S1x8x128x128 ![1, 0, 0, 0] X slices_S4x8x128x128_o1_0_0_0_S1x8x128x128⟩,
       ⟨S1x8x128x128, extractStridedSlice S1x8x128x128 ![0, 0, 0, 0] X slices_S4x8x128x128_o0_0_0_0_S1x8x128x128⟩]
      concatenates_S1x8x128x128_S1x8x128x128_S1x8x128x128_S1x8x128x128_S4x8x128x128_d0
      (ix4 a b c d) = X (ix4 a.rev b c d) := by
  -- the literal list of pieces is the list of the slices at positions 3 - n, n = 0, …, 3; the piece read is the one
  -- the axis coordinate names, and that slice reads the operand at position 3 - (the coordinate)
  refine (concatenate_ofFn_unit_apply (t := S4x8x128x128) (s₁ := S1x8x128x128) 0
    (fun n : Fin 4 => extractStridedSlice S1x8x128x128 ![3 - n.val, 0, 0, 0] X (slices_rowsOuter n))
    _ rfl rfl (ix4 a b c d) a rfl (ix4 0 b c d)
    (fun e he => match e, he with
      | ⟨0, _⟩, he => absurd rfl he
      | ⟨1, _⟩, _ => rfl
      | ⟨2, _⟩, _ => rfl
      | ⟨3, _⟩, _ => rfl)).trans ?_
  exact extractStridedSlice_apply _ _ _ _ _ (fun e => match e with
    | ⟨0, _⟩ => by have := a.isLt; show 4 - (a.val + 1) = 3 - a.val + 0; omega
    | ⟨1, _⟩ => by show b.val = 0 + b.val; omega
    | ⟨2, _⟩ => by show c.val = 0 + c.val; omega
    | ⟨3, _⟩ => by show d.val = 0 + d.val; omega)

/-- The unit slice at position `7 - n` of axis 2 of a `[32, 16, 8, 128]` array lies inside the array. -/
theorem slices_colsInner (n : Fin 8) : S32x16x8x128.Slices ![0, 0, 7 - n.val, 0] S32x16x1x128 :=
  ⟨rfl, fun e => match e with
    | ⟨0, _⟩ => by show 0 + 32 ≤ 32; omega
    | ⟨1, _⟩ => by show 0 + 16 ≤ 16; omega
    | ⟨2, _⟩ => by have := n.isLt; show 7 - n.val + 1 ≤ 8; omega
    | ⟨3, _⟩ => by show 0 + 128 ≤ 128; omega⟩

/-- The 8 unit slices of axis 2 of a `[32, 16, 8, 128]` array, laid side by side from the last to the first, are the array with axis 2 reversed. -/
theorem rev_colsInner (X : FVec F S32x16x8x128 .f32) (a : Fin 32) (b : Fin 16) (c : Fin 8) (d : Fin 128) :
    concatenate S32x16x8x128 2
      [⟨S32x16x1x128, extractStridedSlice S32x16x1x128 ![0, 0, 7, 0] X slices_S32x16x8x128_o0_0_7_0_S32x16x1x128⟩,
       ⟨S32x16x1x128, extractStridedSlice S32x16x1x128 ![0, 0, 6, 0] X slices_S32x16x8x128_o0_0_6_0_S32x16x1x128⟩,
       ⟨S32x16x1x128, extractStridedSlice S32x16x1x128 ![0, 0, 5, 0] X slices_S32x16x8x128_o0_0_5_0_S32x16x1x128⟩,
       ⟨S32x16x1x128, extractStridedSlice S32x16x1x128 ![0, 0, 4, 0] X slices_S32x16x8x128_o0_0_4_0_S32x16x1x128⟩,
       ⟨S32x16x1x128, extractStridedSlice S32x16x1x128 ![0, 0, 3, 0] X slices_S32x16x8x128_o0_0_3_0_S32x16x1x128⟩,
       ⟨S32x16x1x128, extractStridedSlice S32x16x1x128 ![0, 0, 2, 0] X slices_S32x16x8x128_o0_0_2_0_S32x16x1x128⟩,
       ⟨S32x16x1x128, extractStridedSlice S32x16x1x128 ![0, 0, 1, 0] X slices_S32x16x8x128_o0_0_1_0_S32x16x1x128⟩,
       ⟨S32x16x1x128, extractStridedSlice S32x16x1x128 ![0, 0, 0, 0] X slices_S32x16x8x128_o0_0_0_0_S32x16x1x128⟩]
      concatenates_S32x16x1x128_S32x16x1x128_S32x16x1x128_S32x16x1x128_S32x16x1x128_S32x16x1x128_S32x16x1x128_S32x16x1x128_S32x16x8x128_d2
      (ix4 a b c d) = X (ix4 a b c.rev d) := by
  -- the literal list of pieces is the list of the slices at positions 7 - n, n = 0, …, 7; the piece read is the one
  -- the axis coordinate names, and that slice reads the operand at position 7 - (the coordinate)
  refine (concatenate_ofFn_unit_apply (t := S32x16x8x128) (s₁ := S32x16x1x128) 2
    (fun n : Fin 8 => extractStridedSlice S32x16x1x128 ![0, 0, 7 - n.val, 0] X (slices_colsInner n))
    _ rfl rfl (ix4 a b c d) c rfl (ix4 a b 0 d)
    (fun e he => match e, he with
      | ⟨0, _⟩, _ => rfl
      | ⟨1, _⟩, _ => rfl
      | ⟨2, _⟩, he => absurd rfl he
      | ⟨3, _⟩, _ => rfl)).trans ?_
  exact extractStridedSlice_apply _ _ _ _ _ (fun e => match e with
    | ⟨0, _⟩ => by show a.val = 0 + a.val; omega
    | ⟨1, _⟩ => by show b.val = 0 + b.val; omega
    | ⟨2, _⟩ => by have := c.isLt; show 8 - (c.val + 1) = 7 - c.val + 0; omega
    | ⟨3, _⟩ => by show d.val = 0 + d.val; omega)

/-- The unit slice at position `15 - n` of axis 1 of a `[32, 16, 8, 128]` array lies inside the array. -/
theorem slices_colsOuter (n : Fin 16) : S32x16x8x128.Slices ![0, 15 - n.val, 0, 0] S32x1x8x128 :=
  ⟨rfl, fun e => match e with
    | ⟨0, _⟩ => by show 0 + 32 ≤ 32; omega
    | ⟨1, _⟩ => by have := n.isLt; show 15 - n.val + 1 ≤ 16; omega
    | ⟨2, _⟩ => by show 0 + 8 ≤ 8; omega
    | ⟨3, _⟩ => by show 0 + 128 ≤ 128; omega⟩

/-- The 16 unit slices of axis 1 of a `[32, 16, 8, 128]` array, laid side by side from the last to the first, are the array with axis 1 reversed. -/
theorem rev_colsOuter (X : FVec F S32x16x8x128 .f32) (a : Fin 32) (b : Fin 16) (c : Fin 8) (d : Fin 128) :
    concatenate S32x16x8x128 1
      [⟨S32x1x8x128, extractStridedSlice S32x1x8x128 ![0, 15, 0, 0] X slices_S32x16x8x128_o0_15_0_0_S32x1x8x128⟩,
       ⟨S32x1x8x128, extractStridedSlice S32x1x8x128 ![0, 14, 0, 0] X slices_S32x16x8x128_o0_14_0_0_S32x1x8x128⟩,
       ⟨S32x1x8x128, extractStridedSlice S32x1x8x128 ![0, 13, 0, 0] X slices_S32x16x8x128_o0_13_0_0_S32x1x8x128⟩,
       ⟨S32x1x8x128, extractStridedSlice S32x1x8x128 ![0, 12, 0, 0] X slices_S32x16x8x128_o0_12_0_0_S32x1x8x128⟩,
       ⟨S32x1x8x128, extractStridedSlice S32x1x8x128 ![0, 11, 0, 0] X slices_S32x16x8x128_o0_11_0_0_S32x1x8x128⟩,
       ⟨S32x1x8x128, extractStridedSlice S32x1x8x128 ![0, 10, 0, 0] X slices_S32x16x8x128_o0_10_0_0_S32x1x8x128⟩,
       ⟨S32x1x8x128, extractStridedSlice S32x1x8x128 ![0, 9, 0, 0] X slices_S32x16x8x128_o0_9_0_0_S32x1x8x128⟩,
       ⟨S32x1x8x128, extractStridedSlice S32x1x8x128 ![0, 8, 0, 0] X slices_S32x16x8x128_o0_8_0_0_S32x1x8x128⟩,
       ⟨S32x1x8x128, extractStridedSlice S32x1x8x128 ![0, 7, 0, 0] X slices_S32x16x8x128_o0_7_0_0_S32x1x8x128⟩,
       ⟨S32x1x8x128, extractStridedSlice S32x1x8x128 ![0, 6, 0, 0] X slices_S32x16x8x128_o0_6_0_0_S32x1x8x128⟩,
       ⟨S32x1x8x128, extractStridedSlice S32x1x8x128 ![0, 5, 0, 0] X slices_S32x16x8x128_o0_5_0_0_S32x1x8x128⟩,
       ⟨S32x1x8x128, extractStridedSlice S32x1x8x128 ![0, 4, 0, 0] X slices_S32x16x8x128_o0_4_0_0_S32x1x8x128⟩,
       ⟨S32x1x8x128, extractStridedSlice S32x1x8x128 ![0, 3, 0, 0] X slices_S32x16x8x128_o0_3_0_0_S32x1x8x128⟩,
       ⟨S32x1x8x128, extractStridedSlice S32x1x8x128 ![0, 2, 0, 0] X slices_S32x16x8x128_o0_2_0_0_S32x1x8x128⟩,
       ⟨S32x1x8x128, extractStridedSlice S32x1x8x128 ![0, 1, 0, 0] X slices_S32x16x8x128_o0_1_0_0_S32x1x8x128⟩,
       ⟨S32x1x8x128, extractStridedSlice S32x1x8x128 ![0, 0, 0, 0] X slices_S32x16x8x128_o0_0_0_0_S32x1x8x128⟩]
      concatenates_S32x1x8x128_S32x1x8x128_S32x1x8x128_S32x1x8x128_S32x1x8x128_S32x1x8x128_S32x1x8x128_S32x1x8x128_S32x1x8x128_S32x1x8x128_S32x1x8x128_S32x1x8x128_S32x1x8x128_S32x1x8x128_S32x1x8x128_S32x1x8x128_S32x16x8x128_d1
      (ix4 a b c d) = X (ix4 a b.rev c d) := by
  -- the literal list of pieces is the list of the slices at positions 15 - n, n = 0, …, 15; the piece read is the one
  -- the axis coordinate names, and that slice reads the operand at position 15 - (the coordinate)
  refine (concatenate_ofFn_unit_apply (t := S32x16x8x128) (s₁ := S32x1x8x128) 1
    (fun n : Fin 16 => extractStridedSlice S32x1x8x128 ![0, 15 - n.val, 0, 0] X (slices_colsOuter n))
    _ rfl rfl (ix4 a b c d) b rfl (ix4 a 0 c d)
    (fun e he => match e, he with
      | ⟨0, _⟩, _ => rfl
      | ⟨1, _⟩, he => absurd rfl he
      | ⟨2, _⟩, _ => rfl
      | ⟨3, _⟩, _ => rfl)).trans ?_
  exact extractStridedSlice_apply _ _ _ _ _ (fun e => match e with
    | ⟨0, _⟩ => by show a.val = 0 + a.val; omega
    | ⟨1, _⟩ => by have := b.isLt; show 16 - (b.val + 1) = 15 - b.val + 0; omega
    | ⟨2, _⟩ => by show c.val = 0 + c.val; omega
    | ⟨3, _⟩ => by show d.val = 0 + d.val; omega)

/-- A loaded band of 32 rows with its unit batch axis dropped. -/
theorem pay20_apply (v : Vec F S1x32x128x128 .f32) (p : Fin 32) (q r : Fin 128) :
    k0_pay20 v (ix3 p q r) = v (ix4 0 p q r) := by
  unfold k0_pay20
  exact shapeCast_1abc_abc_apply v _ p q r

/-- A loaded band of 32 rows, its rows reversed and then its 128 columns reversed. -/
theorem pay53_apply (v : Vec F S1x32x128x128 .f32) (p : Fin 32) (q r : Fin 128) :
    k0_pay53 v (ix3 p q r) = v (ix4 0 p.rev q.rev r) := by
  have hp := p.isLt
  have hq := q.isLt
  unfold k0_pay53
  -- [32, 128, 128] at (p, q, r) is [32, 16, 8, 128] at (p, q / 8, q % 8, r)
  refine (shapeCast_apply _ _ (ix3 p q r) (ix4 p (⟨q.val / 8, by omega⟩ : Fin 16) (⟨q.val % 8, by omega⟩ : Fin 8) r)
    (by rw [Shape.rowMajor_val_four, Shape.rowMajor_val_three]
        show ((p.val * 16 + q.val / 8) * 8 + q.val % 8) * 128 + r.val = (p.val * 128 + q.val) * 128 + r.val
        omega)).trans ?_
  -- the 16 groups reversed, then the 8 positions inside a group
  refine (rev_colsOuter _ _ _ _ _).trans ?_
  refine (rev_colsInner _ _ _ _ _).trans ?_
  -- [32, 16, 8, 128] at (p, 15 - q / 8, 7 - q % 8, r) is [32, 128, 128] at (p, 127 - q, r)
  refine (shapeCast_apply _ _ _ (ix3 p q.rev r)
    (by rw [Shape.rowMajor_val_four, Shape.rowMajor_val_three]
        show (p.val * 128 + (128 - (q.val + 1))) * 128 + r.val
          = ((p.val * 16 + (16 - (q.val / 8 + 1))) * 8 + (8 - (q.val % 8 + 1))) * 128 + r.val
        omega)).trans ?_
  -- [32, 128, 128] at (p, 127 - q, r) is [4, 8, 128, 128] at (p / 8, p % 8, 127 - q, r)
  refine (shapeCast_apply _ _ _ (ix4 (⟨p.val / 8, by omega⟩ : Fin 4) (⟨p.val % 8, by omega⟩ : Fin 8) q.rev r)
    (by rw [Shape.rowMajor_val_four, Shape.rowMajor_val_three]
        show ((p.val / 8 * 8 + p.val % 8) * 128 + (128 - (q.val + 1))) * 128 + r.val
          = (p.val * 128 + (128 - (q.val + 1))) * 128 + r.val
        omega)).trans ?_
  -- the 4 groups reversed, then the 8 positions inside a group
  refine (rev_rowsOuter _ _ _ _ _).trans ?_
  refine (rev_rowsInner _ _ _ _ _).trans ?_
  -- [4, 8, 128, 128] at (3 - p / 8, 7 - p % 8, 127 - q, r) is [32, 128, 128] at (31 - p, 127 - q, r)
  refine (shapeCast_apply _ _ _ (ix3 p.rev q.rev r)
    (by rw [Shape.rowMajor_val_four, Shape.rowMajor_val_three]
        show ((32 - (p.val + 1)) * 128 + (128 - (q.val + 1))) * 128 + r.val
          = (((4 - (p.val / 8 + 1)) * 8 + (8 - (p.val % 8 + 1))) * 128 + (128 - (q.val + 1))) * 128 + r.val
        omega)).trans ?_
  -- the unit batch axis dropped
  exact shapeCast_1abc_abc_apply v _ p.rev q.rev r

end Cert.KernelIdeal.KFlipsRows

end
-- ==== Proof.KFlipsCols.lean ====
/-
  The kernel's layout payloads read at an index. A reversal of an axis of 8·g entries is built by the kernel from unit
  slices and concatenations: the axis is split into g groups of 8, the 8 positions inside a group are laid in reverse
  order, then the g groups, and the two axes are merged again; since n - 1 - (8 a + b) = 8 (g - 1 - a) + (7 - b), the
  result at position k is the operand at position n - 1 - k.
-/
import proofs.«403186_j78658031059523_4_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.KFlipsCols

open Cert.KernelIdeal Cert.KernelIdeal.Gen Idealize.ShloMosaic Idealize.ShloMosaic.ValueIdx Idealize.SL.Sem

variable {F : FTy → Type} [FloatOps F]

/-! ## One level of a reversal: unit slices laid end to end in reverse order

Each lemma reads one concatenation of the kernel at a position given by its four coordinates: the N pieces are the unit
slices of one array X along an axis, piece n the slice at offset N - 1 - n, so the position with coordinate k on that
axis lies in piece k and is X at coordinate N - 1 - k, the other coordinates unchanged. -/

/-- The unit slice at offset 7 - n along axis 2 lies inside the array. -/
theorem slices_flip_c37 (n : Fin 8) : S128x4x8x128.Slices ![0, 0, 7 - n.val, 0] S128x4x1x128 :=
  ⟨rfl, fun a => by
    match a with
    | ⟨0, _⟩ => show 0 + 128 ≤ 128; omega
    | ⟨1, _⟩ => show 0 + 4 ≤ 4; omega
    | ⟨2, _⟩ => show (7 - n.val) + 1 ≤ 8; omega
    | ⟨3, _⟩ => show 0 + 128 ≤ 128; omega⟩

/-- The 8 unit slices along axis 2, laid end to end from the last to the first (piece n is the slice at offset 7 - n), are at
    each position the array at the mirrored coordinate of that axis, the other coordinates kept. -/
theorem flip_c37 (X : FVec F S128x4x8x128 .f32) (a : Fin 128) (b : Fin 4) (c : Fin 8) (d : Fin 128) :
    concatenate S128x4x8x128 2 [⟨S128x4x1x128, extractStridedSlice S128x4x1x128 ![0, 0, 7, 0] X slices_S128x4x8x128_o0_0_7_0_S128x4x1x128⟩, ⟨S128x4x1x128, extractStridedSlice S128x4x1x128 ![0, 0, 6, 0] X slices_S128x4x8x128_o0_0_6_0_S128x4x1x128⟩, ⟨S128x4x1x128, extractStridedSlice S128x4x1x128 ![0, 0, 5, 0] X slices_S128x4x8x128_o0_0_5_0_S128x4x1x128⟩, ⟨S128x4x1x128, extractStridedSlice S128x4x1x128 ![0, 0, 4, 0] X slices_S128x4x8x128_o0_0_4_0_S128x4x1x128⟩, ⟨S128x4x1x128, extractStridedSlice S128x4x1x128 ![0, 0, 3, 0] X slices_S128x4x8x128_o0_0_3_0_S128x4x1x128⟩, ⟨S128x4x1x128, extractStridedSlice S128x4x1x128 ![0, 0, 2, 0] X slices_S128x4x8x128_o0_0_2_0_S128x4x1x128⟩, ⟨S128x4x1x128, extractStridedSlice S128x4x1x128 ![0, 0, 1, 0] X slices_S128x4x8x128_o0_0_1_0_S128x4x1x128⟩, ⟨S128x4x1x128, extractStridedSlice S128x4x1x128 ![0, 0, 0, 0] X slices_S128x4x8x128_o0_0_0_0_S128x4x1x128⟩] concatenates_S128x4x1x128_S128x4x1x128_S128x4x1x128_S128x4x1x128_S128x4x1x128_S128x4x1x128_S128x4x1x128_S128x4x1x128_S128x4x8x128_d2 (ix4 a b c d)
      = X (ix4 a b c.rev d) := by
  refine (concatenate_ofFn_unit_apply (t := S128x4x8x128) (s₁ := S128x4x1x128) 2
    (fun n : Fin 8 => extractStridedSlice S128x4x1x128 ![0, 0, 7 - n.val, 0] X (slices_flip_c37 n))
    concatenates_S128x4x1x128_S128x4x1x128_S128x4x1x128_S128x4x1x128_S128x4x1x128_S128x4x1x128_S128x4x1x128_S128x4x1x128_S128x4x8x128_d2
    rfl rfl (ix4 a b c d) c rfl (ix4 a b (0 : Fin 1) d) ?_).trans ?_
  · intro ax hax
    match ax with
    | ⟨0, _⟩ => rfl
    | ⟨1, _⟩ => rfl
    | ⟨2, _⟩ => exact absurd rfl hax
    | ⟨3, _⟩ => rfl
  · refine extractStridedSlice_apply _ X _ _ (ix4 a b c.rev d) fun ax => ?_
    match ax with
    | ⟨0, _⟩ => show a.val = 0 + a.val; omega
    | ⟨1, _⟩ => show b.val = 0 + b.val; omega
    | ⟨2, _⟩ => show c.rev.val = (7 - c.val) + 0; rw [Fin.val_rev]; omega
    | ⟨3, _⟩ => show d.val = 0 + d.val; omega

/-- The unit slice at offset 3 - n along axis 1 lies inside the array. -/
theorem slices_flip_b37 (n : Fin 4) : S128x4x8x128.Slices ![0, 3 - n.val, 0, 0] S128x1x8x128 :=
  ⟨rfl, fun a => by
    match a with
    | ⟨0, _⟩ => show 0 + 128 ≤ 128; omega
    | ⟨1, _⟩ => show (3 - n.val) + 1 ≤ 4; omega
    | ⟨2, _⟩ => show 0 + 8 ≤ 8; omega
    | ⟨3, _⟩ => show 0 + 128 ≤ 128; omega⟩

/-- The 4 unit slices along axis 1, laid end to end from the last to the first (piece n is the slice at offset 3 - n), are at
    each position the array at the mirrored coordinate of that axis, the other coordinates kept. -/
theorem flip_b37 (X : FVec F S128x4x8x128 .f32) (a : Fin 128) (b : Fin 4) (c : Fin 8) (d : Fin 128) :
    concatenate S128x4x8x128 1 [⟨S128x1x8x128, extractStridedSlice S128x1x8x128 ![0, 3, 0, 0] X slices_S128x4x8x128_o0_3_0_0_S128x1x8x128⟩, ⟨S128x1x8x128, extractStridedSlice S128x1x8x128 ![0, 2, 0, 0] X slices_S128x4x8x128_o0_2_0_0_S128x1x8x128⟩, ⟨S128x1x8x128, extractStridedSlice S128x1x8x128 ![0, 1, 0, 0] X slices_S128x4x8x128_o0_1_0_0_S128x1x8x128⟩, ⟨S128x1x8x128, extractStridedSlice S128x1x8x128 ![0, 0, 0, 0] X slices_S128x4x8x128_o0_0_0_0_S128x1x8x128⟩] concatenates_S128x1x8x128_S128x1x8x128_S128x1x8x128_S128x1x8x128_S128x4x8x128_d1 (ix4 a b c d)
      = X (ix4 a b.rev c d) := by
  refine (concatenate_ofFn_unit_apply (t := S128x4x8x128) (s₁ := S128x1x8x128) 1
    (fun n : Fin 4 => extractStridedSlice S128x1x8x128 ![0, 3 - n.val, 0, 0] X (slices_flip_b37 n))
    concatenates_S128x1x8x128_S128x1x8x128_S128x1x8x128_S128x1x8x128_S128x4x8x128_d1
    rfl rfl (ix4 a b c d) b rfl (ix4 a (0 : Fin 1) c d) ?_).trans ?_
  · intro ax hax
    match ax with
    | ⟨0, _⟩ => rfl
    | ⟨1, _⟩ => exact absurd rfl hax
    | ⟨2, _⟩ => rfl
    | ⟨3, _⟩ => rfl
  · refine extractStridedSlice_apply _ X _ _ (ix4 a b.rev c d) fun ax => ?_
    match ax with
    | ⟨0, _⟩ => show a.val = 0 + a.val; omega
    | ⟨1, _⟩ => show b.rev.val = (3 - b.val) + 0; rw [Fin.val_rev]; omega
    | ⟨2, _⟩ => show c.val = 0 + c.val; omega
    | ⟨3, _⟩ => show d.val = 0 + d.val; omega

/-- The unit slice at offset 7 - n along axis 1 lies inside the array. -/
theorem slices_flip_b38 (n : Fin 8) : S16x8x32x128.Slices ![0, 7 - n.val, 0, 0] S16x1x32x128 :=
  ⟨rfl, fun a => by
    match a with
    | ⟨0, _⟩ => show 0 + 16 ≤ 16; omega
    | ⟨1, _⟩ => show (7 - n.val) + 1 ≤ 8; omega
    | ⟨2, _⟩ => show 0 + 32 ≤ 32; omega
    | ⟨3, _⟩ => show 0 + 128 ≤ 128; omega⟩

/-- The 8 unit slices along axis 1, laid end to end from the last to the first (piece n is the slice at offset 7 - n), are at
    each position the array at the mirrored coordinate of that axis, the other coordinates kept. -/
theorem flip_b38 (X : FVec F S16x8x32x128 .f32) (a : Fin 16) (b : Fin 8) (c : Fin 32) (d : Fin 128) :
    concatenate S16x8x32x128 1 [⟨S16x1x32x128, extractStridedSlice S16x1x32x128 ![0, 7, 0, 0] X slices_S16x8x32x128_o0_7_0_0_S16x1x32x128⟩, ⟨S16x1x32x128, extractStridedSlice S16x1x32x128 ![0, 6, 0, 0] X slices_S16x8x32x128_o0_6_0_0_S16x1x32x128⟩, ⟨S16x1x32x128, extractStridedSlice S16x1x32x128 ![0, 5, 0, 0] X slices_S16x8x32x128_o0_5_0_0_S16x1x32x128⟩, ⟨S16x1x32x128, extractStridedSlice S16x1x32x128 ![0, 4, 0, 0] X slices_S16x8x32x128_o0_4_0_0_S16x1x32x128⟩, ⟨S16x1x32x128, extractStridedSlice S16x1x32x128 ![0, 3, 0, 0] X slices_S16x8x32x128_o0_3_0_0_S16x1x32x128⟩, ⟨S16x1x32x128, extractStridedSlice S16x1x32x128 ![0, 2, 0, 0] X slices_S16x8x32x128_o0_2_0_0_S16x1x32x128⟩, ⟨S16x1x32x128, extractStridedSlice S16x1x32x128 ![0, 1, 0, 0] X slices_S16x8x32x128_o0_1_0_0_S16x1x32x128⟩, ⟨S16x1x32x128, extractStridedSlice S16x1x32x128 ![0, 0, 0, 0] X slices_S16x8x32x128_o0_0_0_0_S16x1x32x128⟩] concatenates_S16x1x32x128_S16x1x32x128_S16x1x32x128_S16x1x32x128_S16x1x32x128_S16x1x32x128_S16x1x32x128_S16x1x32x128_S16x8x32x128_d1 (ix4 a b c d)
      = X (ix4 a b.rev c d) := by
  refine (concatenate_ofFn_unit_apply (t := S16x8x32x128) (s₁ := S16x1x32x128) 1
    (fun n : Fin 8 => extractStridedSlice S16x1x32x128 ![0, 7 - n.val, 0, 0] X (slices_flip_b38 n))
    concatenates_S16x1x32x128_S16x1x32x128_S16x1x32x128_S16x1x32x128_S16x1x32x128_S16x1x32x128_S16x1x32x128_S16x1x32x128_S16x8x32x128_d1
    rfl rfl (ix4 a b c d) b rfl (ix4 a (0 : Fin 1) c d) ?_).trans ?_
  · intro ax hax
    match ax with
    | ⟨0, _⟩ => rfl
    | ⟨1, _⟩ => exact absurd rfl hax
    | ⟨2, _⟩ => rfl
    | ⟨3, _⟩ => rfl
  · refine extractStridedSlice_apply _ X _ _ (ix4 a b.rev c d) fun ax => ?_
    match ax with
    | ⟨0, _⟩ => show a.val = 0 + a.val; omega
    | ⟨1, _⟩ => show b.rev.val = (7 - b.val) + 0; rw [Fin.val_rev]; omega
    | ⟨2, _⟩ => show c.val = 0 + c.val; omega
    | ⟨3, _⟩ => show d.val = 0 + d.val; omega

/-- The unit slice at offset 15 - n along axis 0 lies inside the array. -/
theorem slices_flip_a38 (n : Fin 16) : S16x8x32x128.Slices ![15 - n.val, 0, 0, 0] S1x8x32x128 :=
  ⟨rfl, fun a => by
    match a with
    | ⟨0, _⟩ => show (15 - n.val) + 1 ≤ 16; omega
    | ⟨1, _⟩ => show 0 + 8 ≤ 8; omega
    | ⟨2, _⟩ => show 0 + 32 ≤ 32; omega
    | ⟨3, _⟩ => show 0 + 128 ≤ 128; omega⟩

/-- The 16 unit slices along axis 0, laid end to end from the last to the first (piece n is the slice at offset 15 - n), are at
    each position the array at the mirrored coordinate of that axis, the other coordinates kept. -/
theorem flip_a38 (X : FVec F S16x8x32x128 .f32) (a : Fin 16) (b : Fin 8) (c : Fin 32) (d : Fin 128) :
    concatenate S16x8x32x128 0 [⟨S1x8x32x128, extractStridedSlice S1x8x32x128 ![15, 0, 0, 0] X slices_S16x8x32x128_o15_0_0_0_S1x8x32x128⟩, ⟨S1x8x32x128, extractStridedSlice S1x8x32x128 ![14, 0, 0, 0] X slices_S16x8x32x128_o14_0_0_0_S1x8x32x128⟩, ⟨S1x8x32x128, extractStridedSlice S1x8x32x128 ![13, 0, 0, 0] X slices_S16x8x32x128_o13_0_0_0_S1x8x32x128⟩, ⟨S1x8x32x128, extractStridedSlice S1x8x32x128 ![12, 0, 0, 0] X slices_S16x8x32x128_o12_0_0_0_S1x8x32x128⟩, ⟨S1x8x32x128, extractStridedSlice S1x8x32x128 ![11, 0, 0, 0] X slices_S16x8x32x128_o11_0_0_0_S1x8x32x128⟩, ⟨S1x8x32x128, extractStridedSlice S1x8x32x128 ![10, 0, 0, 0] X slices_S16x8x32x128_o10_0_0_0_S1x8x32x128⟩, ⟨S1x8x32x128, extractStridedSlice S1x8x32x128 ![9, 0, 0, 0] X slices_S16x8x32x128_o9_0_0_0_S1x8x32x128⟩, ⟨S1x8x32x128, extractStridedSlice S1x8x32x128 ![8, 0, 0, 0] X slices_S16x8x32x128_o8_0_0_0_S1x8x32x128⟩, ⟨S1x8x32x128, extractStridedSlice S1x8x32x128 ![7, 0, 0, 0] X slices_S16x8x32x128_o7_0_0_0_S1x8x32x128⟩, ⟨S1x8x32x128, extractStridedSlice S1x8x32x128 ![6, 0, 0, 0] X slices_S16x8x32x128_o6_0_0_0_S1x8x32x128⟩, ⟨S1x8x32x128, extractStridedSlice S1x8x32x128 ![5, 0, 0, 0] X slices_S16x8x32x128_o5_0_0_0_S1x8x32x128⟩, ⟨S1x8x32x128, extractStridedSlice S1x8x32x128 ![4, 0, 0, 0] X slices_S16x8x32x128_o4_0_0_0_S1x8x32x128⟩, ⟨S1x8x32x128, extractStridedSlice S1x8x32x128 ![3, 0, 0, 0] X slices_S16x8x32x128_o3_0_0_0_S1x8x32x128⟩, ⟨S1x8x32x128, extractStridedSlice S1x8x32x128 ![2, 0, 0, 0] X slices_S16x8x32x128_o2_0_0_0_S1x8x32x128⟩, ⟨S1x8x32x128, extractStridedSlice S1x8x32x128 ![1, 0, 0, 0] X slices_S16x8x32x128_o1_0_0_0_S1x8x32x128⟩, ⟨S1x8x32x128, extractStridedSlice S1x8x32x128 ![0, 0, 0, 0] X slices_S16x8x32x128_o0_0_0_0_S1x8x32x128⟩] concatenates_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S16x8x32x128_d0 (ix4 a b c d)
      = X (ix4 a.rev b c d) := by
  refine (concatenate_ofFn_unit_apply (t := S16x8x32x128) (s₁ := S1x8x32x128) 0
    (fun n : Fin 16 => extractStridedSlice S1x8x32x128 ![15 - n.val, 0, 0, 0] X (slices_flip_a38 n))
    concatenates_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S1x8x32x128_S16x8x32x128_d0
    rfl rfl (ix4 a b c d) a rfl (ix4 (0 : Fin 1) b c d) ?_).trans ?_
  · intro ax hax
    match ax with
    | ⟨0, _⟩ => exact absurd rfl hax
    | ⟨1, _⟩ => rfl
    | ⟨2, _⟩ => rfl
    | ⟨3, _⟩ => rfl
  · refine extractStridedSlice_apply _ X _ _ (ix4 a.rev b c d) fun ax => ?_
    match ax with
    | ⟨0, _⟩ => show a.rev.val = (15 - a.val) + 0; rw [Fin.val_rev]; omega
    | ⟨1, _⟩ => show b.val = 0 + b.val; omega
    | ⟨2, _⟩ => show c.val = 0 + c.val; omega
    | ⟨3, _⟩ => show d.val = 0 + d.val; omega

/-! ## The payloads at an index

An axis of 8·g entries is split into (g, 8), both levels are mirrored, and the axes are merged again; the row-major
position is kept by both shape casts, and 8 (g - 1 - a) + (7 - b) = 8 g - 1 - (8 a + b). -/

/-- A loaded band of 32 columns (all 128 rows), its 32 columns reversed. -/
theorem pay37_apply (v : Vec F S1x128x32x128 .f32) (p : Fin 128) (q : Fin 32) (r : Fin 128) :
    k0_pay37 v (ix3 p q r) = v (ix4 0 p q.rev r) := by
  -- column q is place c of group b: q = 8 b + c
  obtain ⟨b, c, hq⟩ : ∃ (b : Fin 4) (c : Fin 8), q.val = 8 * b.val + c.val :=
    ⟨⟨q.val / 8, by omega⟩, ⟨q.val % 8, by omega⟩, by show q.val = 8 * (q.val / 8) + q.val % 8; omega⟩
  unfold k0_pay37
  -- merging the axes (4, 8) into 32 puts (b, c) at column 8 b + c
  refine (shapeCast_apply _ shapeCasts_S128x4x8x128_S128x32x128 (ix3 p q r) (ix4 p b c r) ?_).trans ?_
  · rw [Shape.rowMajor_val_four, Shape.rowMajor_val_three]
    show ((p.val * 4 + b.val) * 8 + c.val) * 128 + r.val = (p.val * 32 + q.val) * 128 + r.val
    omega
  -- the groups mirrored, then the places inside a group
  refine (flip_b37 _ p b c r).trans ?_
  refine (flip_c37 _ p b.rev c r).trans ?_
  -- splitting 32 into (4, 8): group 3 - b, place 7 - c is column 8 (3 - b) + (7 - c) = 31 - q
  refine (shapeCast_apply _ shapeCasts_S128x32x128_S128x4x8x128 (ix4 p b.rev c.rev r) (ix3 p q.rev r) ?_).trans ?_
  · rw [Shape.rowMajor_val_four, Shape.rowMajor_val_three]
    show (p.val * 32 + q.rev.val) * 128 + r.val = ((p.val * 4 + b.rev.val) * 8 + c.rev.val) * 128 + r.val
    rw [Fin.val_rev, Fin.val_rev, Fin.val_rev]
    omega
  exact shapeCast_1abc_abc_apply v shapeCasts_S1x128x32x128_S128x32x128 p q.rev r

/-- A loaded band of 32 columns (all 128 rows), its 128 rows reversed. -/
theorem pay38_apply (v : Vec F S1x128x32x128 .f32) (p : Fin 128) (q : Fin 32) (r : Fin 128) :
    k0_pay38 v (ix3 p q r) = v (ix4 0 p.rev q r) := by
  -- row p is place b of group a: p = 8 a + b
  obtain ⟨a, b, hp⟩ : ∃ (a : Fin 16) (b : Fin 8), p.val = 8 * a.val + b.val :=
    ⟨⟨p.val / 8, by omega⟩, ⟨p.val % 8, by omega⟩, by show p.val = 8 * (p.val / 8) + p.val % 8; omega⟩
  unfold k0_pay38
  -- merging the axes (16, 8) into 128 puts (a, b) at row 8 a + b
  refine (shapeCast_apply _ shapeCasts_S16x8x32x128_S128x32x128 (ix3 p q r) (ix4 a b q r) ?_).trans ?_
  · rw [Shape.rowMajor_val_four, Shape.rowMajor_val_three]
    show ((a.val * 8 + b.val) * 32 + q.val) * 128 + r.val = (p.val * 32 + q.val) * 128 + r.val
    omega
  -- the groups mirrored, then the places inside a group
  refine (flip_a38 _ a b q r).trans ?_
  refine (flip_b38 _ a.rev b q r).trans ?_
  -- splitting 128 into (16, 8): group 15 - a, place 7 - b is row 8 (15 - a) + (7 - b) = 127 - p
  refine (shapeCast_apply _ shapeCasts_S128x32x128_S16x8x32x128 (ix4 a.rev b.rev q r) (ix3 p.rev q r) ?_).trans ?_
  · rw [Shape.rowMajor_val_four, Shape.rowMajor_val_three]
    show (p.rev.val * 32 + q.val) * 128 + r.val = ((a.rev.val * 8 + b.rev.val) * 32 + q.val) * 128 + r.val
    rw [Fin.val_rev, Fin.val_rev, Fin.val_rev]
    omega
  exact shapeCast_1abc_abc_apply v shapeCasts_S1x128x32x128_S128x32x128 p.rev q r

/-- The stored band: the two row-band operands gated and added, plus the transposition of the two gated column-band operands. -/
theorem pay39_apply (a b c d : Ideal .f32) (v90 v137 : FVec Ideal S32x128x128 .f32) (v156 v187 : FVec Ideal S128x32x128 .f32)
    (p : Fin 32) (q r : Fin 128) :
    k0_pay39 (F := Ideal) a b c d v90 v137 v156 v187 (ix4 0 p q r)
      = (a * v90 (ix3 p q r) + c * v137 (ix3 p q r)) + (b * v156 (ix3 q p r) + d * v187 (ix3 q p r)) := by
  unfold k0_pay39
  dsimp only
  -- the added unit axis is read through
  refine (shapeCast_abc_1abc_apply _ shapeCasts_S32x128x128_S1x32x128x128 0 p q r).trans ?_
  -- the sums and products are the extended reals' at each index; what is left is the transposed summand
  rw [addf_apply, addf_apply, mulf_apply, mulf_apply, broadcast_apply, broadcast_apply]
  congr 1
  -- the transposition [1, 0, 2] reads (p, q, r) at (q, p, r)
  refine (transpose_apply _ _ transposes_S128x32x128_p1_0_2_S32x128x128 (ix3 p q r) (ix3 q p r) fun ax => ?_).trans ?_
  · match ax with
    | ⟨0, _⟩ => rfl
    | ⟨1, _⟩ => rfl
    | ⟨2, _⟩ => rfl
  rfl

end Cert.KernelIdeal.KFlipsCols

end
-- ==== Proof.Spec.lean ====
/-
  The mathematics both programs compute, stated once over plain finite index types.

  For one image `xs : Fin 128 → Fin 128 → Fin 128 → EReal` (row, column, channel), a selector matrix
  `w : Fin 128 → Fin 4 → EReal` (channel, rotation) and a bias `bb : Fin 4 → EReal`:
  the channel means `pooled c = (∑ over rows and columns of xs · · c) / 16384`, the four logits
  `logit j = (∑ c, pooled c * w c j) + bb j`, their largest `top`, the four exponentials `ex j = exp (logit j - top)`,
  their sum `tot`, the softmax gates `gate j = ex j / tot`, and the gated sum of the four quarter turns of the image,
  `mix i j c = (gate 0 * xs i j c + gate 2 * xs (127 - i) (127 - j) c) + (gate 1 * xs j (127 - i) c + gate 3 * xs (127 - j) i c)`
  (turn by 0°, by 180°, by 90° and by 270° counter-clockwise). Every operation is the extended reals' own
  (`Ideal.div`, `Ideal.exp`, `max`), so the equalities between the two programs below are equalities of sums and maxima
  regrouped, and need nothing of the inputs.
-/
import Idealize.ShloMosaic.PureOps.Ideal
import Idealize.ShloMosaic.Lib.ValueIdx

noncomputable section

namespace Cert.RotMix

open Idealize.ShloMosaic Idealize.ShloMosaic.ValueIdx

/-- The number of pooled positions, 128 · 128 = 16384, as the float word both programs print. -/
abbrev cnt : EReal := Ideal.ofBits .f32 0x46800000#32

section Core
variable (xs : Fin 128 → Fin 128 → Fin 128 → EReal) (w : Fin 128 → Fin 4 → EReal) (bb : Fin 4 → EReal)

/-- The mean of channel `c` over the 128 × 128 positions. -/
def pooled (c : Fin 128) : EReal := Ideal.div (∑ h : Fin 128, ∑ v : Fin 128, xs h v c) cnt

/-- The selector's logit for rotation `j`. -/
def logit (j : Fin 4) : EReal := (∑ c : Fin 128, pooled xs c * w c j) + bb j

/-- The largest of the four logits. -/
def top : EReal := max (max (logit xs w bb 0) (logit xs w bb 1)) (max (logit xs w bb 2) (logit xs w bb 3))

/-- The shifted exponential of logit `j`. -/
def ex (j : Fin 4) : EReal := Ideal.exp (logit xs w bb j - top xs w bb)

/-- The sum of the four exponentials. -/
def tot : EReal := ex xs w bb 0 + ex xs w bb 1 + ex xs w bb 2 + ex xs w bb 3

/-- The softmax gate of rotation `j`. -/
def gate (j : Fin 4) : EReal := Ideal.div (ex xs w bb j) (tot xs w bb)

/-- The gated sum of the four quarter turns of the image at row `i`, column `j`, channel `c`. -/
def mix (i j c : Fin 128) : EReal :=
  (gate xs w bb 0 * xs i j c + gate xs w bb 2 * xs i.rev j.rev c)
    + (gate xs w bb 1 * xs j i.rev c + gate xs w bb 3 * xs j.rev i c)

end Core

/-- The whole result over the batch: image `b` of `X` mixed under the selector `W` (channel × rotation) and bias `B`. -/
def out (X : (⟨4, ![32, 128, 128, 128]⟩ : Shape).Idx → EReal) (W : (⟨2, ![128, 4]⟩ : Shape).Idx → EReal)
    (B : (⟨1, ![4]⟩ : Shape).Idx → EReal) : (⟨4, ![32, 128, 128, 128]⟩ : Shape).Idx → EReal :=
  fun y => mix (fun h v c => X (ix4 (y 0) h v c)) (fun c j => W (ix2 c j)) (fun j => B (ix1 j)) (y 1) (y 2) (y 3)

/-- One image's result as the kernel meets it: a block `x0` of one image, the selector transposed (rotation × channel),
    the bias as a row. -/
def blockOut (x0 : (⟨4, ![1, 128, 128, 128]⟩ : Shape).Idx → EReal) (x1 : (⟨2, ![4, 128]⟩ : Shape).Idx → EReal)
    (x2 : (⟨2, ![1, 4]⟩ : Shape).Idx → EReal) : (⟨4, ![1, 128, 128, 128]⟩ : Shape).Idx → EReal :=
  fun y => mix (fun h v c => x0 (ix4 0 h v c)) (fun c j => x1 (ix2 j c)) (fun j => x2 (ix2 0 j)) (y 1) (y 2) (y 3)

end Cert.RotMix

end
-- ==== Proof.KWeights.lean ====
/-
  The kernel's selector read at the extended reals: the four bands' sums over rows and columns add up to the sum over the
  whole image, so the pooled row is the channel means; each logit is a lane sum against one row of the transposed selector;
  the maximum, the exponentials, their sum and the quotients are the softmax gates `RotMix.gate`.

  The road: (1) the source indices of a [32,128,128] vector that drop to lane `c` under a reduction over the first two axes
  are the pairs (row, column) with `c` as third coordinate, so the reduction is a double sum; (2) a sum over 128 rows is
  the sum of its four 32-row bands at offsets 0, 32, 64, 96, added in the kernel's order onto zero; (3) the pooled row is
  that sum divided by 16384; (4) each logit, the maximum, the exponentials, their sum and the quotients then read through
  at the one entry `(0, 0)`, in the grouping `RotMix` was written in.
-/
import proofs.«403186_j78658031059523_4_alg».proof.Proof.Gen.KernelIdeal.Skeleton
import proofs.«403186_j78658031059523_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KWeights

open Cert.KernelIdeal Cert.KernelIdeal.Gen Idealize.ShloMosaic Idealize.ShloMosaic.ValueIdx Idealize.SL.Sem

/-- Dropping the first two coordinates of a rank-3 index keeps the third. -/
theorem drop_ix3 (h : S32x128x128.Reduces [0, 1] S128) (p : Fin 32) (q r : Fin 128) :
    h.drop (ix3 p q r) = ix1 r := by
  funext b
  obtain rfl : b = 0 := Subsingleton.elim _ _
  exact Fin.ext (h.drop_apply_val_of_eq (ix3 p q r) 0 2)

/-- Over any commutative monoid: the indices of a [32,128,128] vector that drop to lane `c` when the first two axes are
    reduced are the triples (row, column, `c`), so their sum is the double sum over rows and columns. -/
theorem sum_filter_drop2 {M : Type*} [AddCommMonoid M] (h : S32x128x128.Reduces [0, 1] S128)
    (x : S32x128x128.Idx → M) (c : Fin 128) :
    ∑ i ∈ Finset.univ.filter (fun i => h.drop i = ix1 c), x i = ∑ p : Fin 32, ∑ q : Fin 128, x (ix3 p q c) := by
  have hmem : ∀ i : S32x128x128.Idx, h.drop i = ix1 c → i = ix3 (i 0) (i 1) c := by
    intro i hi
    have h2 : i 2 = c := by
      have := congrFun hi 0
      exact Fin.ext ((h.drop_apply_val_of_eq i 0 2).symm.trans (congrArg Fin.val this))
    rw [← h2]; exact eq_ix3 i
  rw [← Fintype.sum_prod_type']
  refine Finset.sum_nbij' (fun i => (i 0, i 1)) (fun pq => ix3 pq.1 pq.2 c) ?_ ?_ ?_ ?_ ?_
  · intro i _; exact Finset.mem_univ _
  · intro pq _; exact Finset.mem_filter.2 ⟨Finset.mem_univ _, drop_ix3 h pq.1 pq.2 c⟩
  · intro i hi; exact (hmem i (Finset.mem_filter.1 hi).2).symm
  · intro pq _; rfl
  · intro i hi; exact congrArg x (hmem i (Finset.mem_filter.1 hi).2)

/-- A sum over 128 rows is zero plus its four 32-row bands at offsets 0, 32, 64 and 96, added left to right
    (128 = 32 + 32 + 32 + 32, split three times). -/
theorem sum_bands {M : Type*} [AddCommMonoid M] (f : Fin 128 → M) :
    ∑ i : Fin 128, f i
      = ((((0 + ∑ p : Fin 32, f ⟨p.val, by have := p.isLt; omega⟩) + ∑ p : Fin 32, f ⟨32 + p.val, by have := p.isLt; omega⟩)
          + ∑ p : Fin 32, f ⟨64 + p.val, by have := p.isLt; omega⟩) + ∑ p : Fin 32, f ⟨96 + p.val, by have := p.isLt; omega⟩) := by
  have key : ∀ g : Fin (32 + 32 + 32 + 32) → M, ∑ i, g i
      = ((((0 + ∑ p : Fin 32, g (Fin.castAdd 32 (Fin.castAdd 32 (Fin.castAdd 32 p))))
          + ∑ p : Fin 32, g (Fin.castAdd 32 (Fin.castAdd 32 (Fin.natAdd 32 p))))
          + ∑ p : Fin 32, g (Fin.castAdd 32 (Fin.natAdd (32 + 32) p))) + ∑ p : Fin 32, g (Fin.natAdd (32 + 32 + 32) p)) := by
    intro g
    rw [Fin.sum_univ_add, Fin.sum_univ_add, Fin.sum_univ_add, zero_add]
  exact key f

/-- One band's two-axis sum at lane `c`: the sum over its 32 rows and 128 columns. -/
theorem band_sum (v : Vec Ideal S1x32x128x128 .f32) (c : Fin 128) :
    multiReduction (F := Ideal) .add [0, 1] S128 (shapeCast S32x128x128 v shapeCasts_S1x32x128x128_S32x128x128) 0x00000000#32
        reduces_S32x128x128_S128 (.inl rfl) rfl (ix1 c)
      = ∑ p : Fin 32, ∑ q : Fin 128, v (ix4 0 p q c) := by
  show Ideal.reduceAdd reduces_S32x128x128_S128 _ (ix1 c) = _
  unfold Ideal.reduceAdd
  refine (sum_filter_drop2 reduces_S32x128x128_S128 _ c).trans ?_
  refine Finset.sum_congr rfl fun p _ => Finset.sum_congr rfl fun q _ => ?_
  exact shapeCast_1abc_abc_apply v _ p q c

/-- The pooled row at lane `c`: the four bands' sums added onto zero, divided by 16384, is the mean of channel `c` over
    the whole image. -/
theorem pooled_eq (v4 v11 v18 v25 : Vec Ideal S1x32x128x128 .f32)
    (xs : Fin 128 → Fin 128 → Fin 128 → EReal)
    (h4 : ∀ (p : Fin 32) (q r : Fin 128), v4 (ix4 0 p q r) = xs ⟨p.val, by have := p.isLt; omega⟩ q r)
    (h11 : ∀ (p : Fin 32) (q r : Fin 128), v11 (ix4 0 p q r) = xs ⟨32 + p.val, by have := p.isLt; omega⟩ q r)
    (h18 : ∀ (p : Fin 32) (q r : Fin 128), v18 (ix4 0 p q r) = xs ⟨64 + p.val, by have := p.isLt; omega⟩ q r)
    (h25 : ∀ (p : Fin 32) (q r : Fin 128), v25 (ix4 0 p q r) = xs ⟨96 + p.val, by have := p.isLt; omega⟩ q r)
    (c : Fin 128) :
    k0_pay3 (F := Ideal) v4 v11 v18 v25 (ix2 0 c) = Cert.RotMix.pooled xs c := by
  unfold k0_pay3 Cert.RotMix.pooled
  refine (shapeCast_a_1a_apply _ _ 0 c).trans ?_
  rw [divf_apply, broadcast_apply]
  refine congrArg (fun t => Ideal.div t _) ?_
  rw [addf_apply, addf_apply, addf_apply, addf_apply, broadcast_apply, band_sum, band_sum, band_sum, band_sum]
  rw [sum_bands (fun h => ∑ v : Fin 128, xs h v c)]
  simp only [h4, h11, h18, h25]
  exact congrArg (fun z : EReal => z + (∑ p : Fin 32, ∑ v : Fin 128, xs ⟨p.val, by have := p.isLt; omega⟩ v c)
      + (∑ p : Fin 32, ∑ v : Fin 128, xs ⟨32 + p.val, by have := p.isLt; omega⟩ v c)
      + (∑ p : Fin 32, ∑ v : Fin 128, xs ⟨64 + p.val, by have := p.isLt; omega⟩ v c)
      + (∑ p : Fin 32, ∑ v : Fin 128, xs ⟨96 + p.val, by have := p.isLt; omega⟩ v c)) Ideal.ofBits_zero_f32

/-- The position `[0, 0]` a scalar is extracted at is the index `(0, 0)`. -/
theorem extractAt_00 (x : FVec Ideal S1x1 .f32) : extractAt ![0, 0] x inpos_S1x1_p0_0 = x (ix2 0 0) := by
  unfold extractAt
  refine congrArg x (funext fun a => ?_)
  match a with
  | ⟨0, _⟩ => rfl
  | ⟨1, _⟩ => rfl

/-- A lane sum of a one-row vector: the sum over its 128 lanes. -/
theorem lane_sum (x : FVec Ideal S1x128 .f32) :
    multiReduction (F := Ideal) .add [1] S1 x 0x00000000#32 reduces_S1x128_S1 (.inl rfl) rfl (ix1 0)
      = ∑ c : Fin 128, x (ix2 0 c) := by
  refine (Ideal.multiReduction_add_single x 0x00000000#32 reduces_S1x128_S1 (.inl rfl) rfl (ix1 0)).trans ?_
  refine Finset.sum_congr rfl fun c _ => congrArg x (funext fun a => ?_)
  match a with
  | ⟨0, _⟩ => rfl
  | ⟨1, _⟩ => rfl

/-- Row `j` of the transposed selector, sliced out as a one-row vector. -/
theorem row_apply (v32 : Vec Ideal S4x128 .f32) (off : Fin 2 → Nat) (hs : S4x128.Slices off S1x128) (j : Fin 4)
    (h0 : off 0 = j.val) (h1 : off 1 = 0) (c : Fin 128) :
    extractStridedSlice S1x128 off (k0_pay4 (F := Ideal) v32) hs (ix2 0 c) = v32 (ix2 j c) := by
  refine (extractStridedSlice_apply off _ hs (ix2 0 c) (ix2 j c) fun a => ?_).trans ?_
  · match a with
    | ⟨0, _⟩ => show j.val = off 0 + 0; rw [h0]; rfl
    | ⟨1, _⟩ => show c.val = off 1 + c.val; rw [h1, Nat.zero_add]
  · unfold k0_pay4
    exact shapeCast_apply v32 _ _ _ rfl

/-- Entry `j` of the bias row, sliced out as a one-entry vector. -/
theorem bias_apply (v34 : Vec Ideal S1x4 .f32) (off : Fin 2 → Nat) (hs : S1x4.Slices off S1x1) (j : Fin 4)
    (h0 : off 0 = 0) (h1 : off 1 = j.val) :
    extractStridedSlice S1x1 off (k0_pay5 (F := Ideal) v34) hs (ix2 0 0) = v34 (ix2 0 j) := by
  refine (extractStridedSlice_apply off _ hs (ix2 0 0) (ix2 0 j) fun a => ?_).trans ?_
  · match a with
    | ⟨0, _⟩ => show 0 = off 0 + 0; rw [h0]
    | ⟨1, _⟩ => show j.val = off 1 + 0; rw [h1]; rfl
  · unfold k0_pay5
    exact shapeCast_apply v34 _ _ _ rfl

/-- An exponential at an index is the extended reals' exponential of the element. -/
theorem exp_apply (a : FVec Ideal S1x1 .f32) (i : S1x1.Idx) : exp a i = Ideal.exp (a i) := rfl

/-- The common shape of the four logits, read at their one entry: the lane sum of the pooled row against row `j` of the
    transposed selector, plus entry `j` of the bias row. -/
theorem logit_apply (v31 : FVec Ideal S1x128 .f32) (v32 : Vec Ideal S4x128 .f32) (v34 : Vec Ideal S1x4 .f32)
    (offw : Fin 2 → Nat) (hsw : S4x128.Slices offw S1x128) (offb : Fin 2 → Nat) (hsb : S1x4.Slices offb S1x1) (j : Fin 4)
    (hw0 : offw 0 = j.val) (hw1 : offw 1 = 0) (hb0 : offb 0 = 0) (hb1 : offb 1 = j.val) :
    addf (shapeCast S1x1 (multiReduction (F := Ideal) .add [1] S1
            (mulf v31 (extractStridedSlice S1x128 offw (k0_pay4 (F := Ideal) v32) hsw)) 0x00000000#32 reduces_S1x128_S1 (.inl rfl) rfl)
          shapeCasts_S1_S1x1)
        (extractStridedSlice S1x1 offb (k0_pay5 (F := Ideal) v34) hsb) (ix2 0 0)
      = (∑ c : Fin 128, v31 (ix2 0 c) * v32 (ix2 j c)) + v34 (ix2 0 j) := by
  rw [addf_apply, bias_apply v34 offb hsb j hb0 hb1]
  refine congrArg (· + v34 (ix2 0 j)) ?_
  refine (shapeCast_a_1a_apply _ _ 0 0).trans ?_
  refine (lane_sum _).trans ?_
  refine Finset.sum_congr rfl fun c _ => ?_
  rw [mulf_apply, row_apply v32 offw hsw j hw0 hw1 c]

section Gates
variable (v4 v11 v18 v25 : Vec Ideal S1x32x128x128 .f32) (v32 : Vec Ideal S4x128 .f32) (v34 : Vec Ideal S1x4 .f32)
    (xs : Fin 128 → Fin 128 → Fin 128 → EReal) (w : Fin 128 → Fin 4 → EReal) (bb : Fin 4 → EReal)
    (h4 : ∀ (p : Fin 32) (q r : Fin 128), v4 (ix4 0 p q r) = xs ⟨p.val, by have := p.isLt; omega⟩ q r)
    (h11 : ∀ (p : Fin 32) (q r : Fin 128), v11 (ix4 0 p q r) = xs ⟨32 + p.val, by have := p.isLt; omega⟩ q r)
    (h18 : ∀ (p : Fin 32) (q r : Fin 128), v18 (ix4 0 p q r) = xs ⟨64 + p.val, by have := p.isLt; omega⟩ q r)
    (h25 : ∀ (p : Fin 32) (q r : Fin 128), v25 (ix4 0 p q r) = xs ⟨96 + p.val, by have := p.isLt; omega⟩ q r)
    (hw : ∀ (j : Fin 4) (c : Fin 128), v32 (ix2 j c) = w c j) (hb : ∀ j : Fin 4, v34 (ix2 0 j) = bb j)
include h4 h11 h18 h25 hw hb

/-- The lane sum against row `j` plus the bias entry `j`, over the pooled row, is the logit of rotation `j`. -/
theorem logit_sum (j : Fin 4) :
    (∑ c : Fin 128, k0_pay3 (F := Ideal) v4 v11 v18 v25 (ix2 0 c) * v32 (ix2 j c)) + v34 (ix2 0 j)
      = Cert.RotMix.logit xs w bb j := by
  unfold Cert.RotMix.logit
  rw [hb j]
  refine congrArg (· + bb j) (Finset.sum_congr rfl fun c _ => ?_)
  rw [pooled_eq v4 v11 v18 v25 xs h4 h11 h18 h25 c, hw j c]

/-- The first logit. -/
theorem pay6_eq : k0_pay6 (F := Ideal) (k0_pay3 v4 v11 v18 v25) v32 v34 (ix2 0 0) = Cert.RotMix.logit xs w bb 0 := by
  unfold k0_pay6
  exact (logit_apply _ v32 v34 _ _ _ _ 0 rfl rfl rfl rfl).trans (logit_sum v4 v11 v18 v25 v32 v34 xs w bb h4 h11 h18 h25 hw hb 0)

/-- The second logit. -/
theorem pay7_eq : k0_pay7 (F := Ideal) (k0_pay3 v4 v11 v18 v25) v32 v34 (ix2 0 0) = Cert.RotMix.logit xs w bb 1 := by
  unfold k0_pay7
  exact (logit_apply _ v32 v34 _ _ _ _ 1 rfl rfl rfl rfl).trans (logit_sum v4 v11 v18 v25 v32 v34 xs w bb h4 h11 h18 h25 hw hb 1)

/-- The third logit. -/
theorem pay8_eq : k0_pay8 (F := Ideal) (k0_pay3 v4 v11 v18 v25) v32 v34 (ix2 0 0) = Cert.RotMix.logit xs w bb 2 := by
  unfold k0_pay8
  exact (logit_apply _ v32 v34 _ _ _ _ 2 rfl rfl rfl rfl).trans (logit_sum v4 v11 v18 v25 v32 v34 xs w bb h4 h11 h18 h25 hw hb 2)

/-- The fourth logit. -/
theorem pay9_eq : k0_pay9 (F := Ideal) (k0_pay3 v4 v11 v18 v25) v32 v34 (ix2 0 0) = Cert.RotMix.logit xs w bb 3 := by
  unfold k0_pay9
  exact (logit_apply _ v32 v34 _ _ _ _ 3 rfl rfl rfl rfl).trans (logit_sum v4 v11 v18 v25 v32 v34 xs w bb h4 h11 h18 h25 hw hb 3)

/-- The maximum tree `max (max l0 l1) (max l2 l3)` is the largest logit. -/
theorem pay10_eq : k0_pay10 (F := Ideal) (k0_pay3 v4 v11 v18 v25) v32 v34 (ix2 0 0) = Cert.RotMix.top xs w bb := by
  unfold k0_pay10 Cert.RotMix.top
  rw [maximumf_apply, maximumf_apply, maximumf_apply,
    pay6_eq v4 v11 v18 v25 v32 v34 xs w bb h4 h11 h18 h25 hw hb, pay7_eq v4 v11 v18 v25 v32 v34 xs w bb h4 h11 h18 h25 hw hb,
    pay8_eq v4 v11 v18 v25 v32 v34 xs w bb h4 h11 h18 h25 hw hb, pay9_eq v4 v11 v18 v25 v32 v34 xs w bb h4 h11 h18 h25 hw hb]

/-- The first shifted exponential. -/
theorem pay11_eq : k0_pay11 (F := Ideal) (k0_pay3 v4 v11 v18 v25) v32 v34 (ix2 0 0) = Cert.RotMix.ex xs w bb 0 := by
  unfold k0_pay11 Cert.RotMix.ex
  refine (exp_apply _ (ix2 0 0)).trans ?_
  rw [subf_apply, pay6_eq v4 v11 v18 v25 v32 v34 xs w bb h4 h11 h18 h25 hw hb, pay10_eq v4 v11 v18 v25 v32 v34 xs w bb h4 h11 h18 h25 hw hb]

/-- The second shifted exponential. -/
theorem pay12_eq : k0_pay12 (F := Ideal) (k0_pay3 v4 v11 v18 v25) v32 v34 (ix2 0 0) = Cert.RotMix.ex xs w bb 1 := by
  unfold k0_pay12 Cert.RotMix.ex
  refine (exp_apply _ (ix2 0 0)).trans ?_
  rw [subf_apply, pay7_eq v4 v11 v18 v25 v32 v34 xs w bb h4 h11 h18 h25 hw hb, pay10_eq v4 v11 v18 v25 v32 v34 xs w bb h4 h11 h18 h25 hw hb]

/-- The third shifted exponential. -/
theorem pay13_eq : k0_pay13 (F := Ideal) (k0_pay3 v4 v11 v18 v25) v32 v34 (ix2 0 0) = Cert.RotMix.ex xs w bb 2 := by
  unfold k0_pay13 Cert.RotMix.ex
  refine (exp_apply _ (ix2 0 0)).trans ?_
  rw [subf_apply, pay8_eq v4 v11 v18 v25 v32 v34 xs w bb h4 h11 h18 h25 hw hb, pay10_eq v4 v11 v18 v25 v32 v34 xs w bb h4 h11 h18 h25 hw hb]

/-- The fourth shifted exponential. -/
theorem pay14_eq : k0_pay14 (F := Ideal) (k0_pay3 v4 v11 v18 v25) v32 v34 (ix2 0 0) = Cert.RotMix.ex xs w bb 3 := by
  unfold k0_pay14 Cert.RotMix.ex
  refine (exp_apply _ (ix2 0 0)).trans ?_
  rw [subf_apply, pay9_eq v4 v11 v18 v25 v32 v34 xs w bb h4 h11 h18 h25 hw hb, pay10_eq v4 v11 v18 v25 v32 v34 xs w bb h4 h11 h18 h25 hw hb]

/-- The sum `((e0 + e1) + e2) + e3` of the four exponentials. -/
theorem pay15_eq : k0_pay15 (F := Ideal) (k0_pay3 v4 v11 v18 v25) v32 v34 (ix2 0 0) = Cert.RotMix.tot xs w bb := by
  unfold k0_pay15 Cert.RotMix.tot
  rw [addf_apply, addf_apply, addf_apply, pay11_eq v4 v11 v18 v25 v32 v34 xs w bb h4 h11 h18 h25 hw hb, pay12_eq v4 v11 v18 v25 v32 v34 xs w bb h4 h11 h18 h25 hw hb, pay13_eq v4 v11 v18 v25 v32 v34 xs w bb h4 h11 h18 h25 hw hb, pay14_eq v4 v11 v18 v25 v32 v34 xs w bb h4 h11 h18 h25 hw hb]

/-- The first quotient, extracted at `(0, 0)`, is the first gate. -/
theorem pay16_eq : k0_pay16 (F := Ideal) (k0_pay3 v4 v11 v18 v25) v32 v34 = Cert.RotMix.gate xs w bb 0 := by
  unfold k0_pay16 Cert.RotMix.gate
  refine (extractAt_00 _).trans ?_
  rw [divf_apply, pay11_eq v4 v11 v18 v25 v32 v34 xs w bb h4 h11 h18 h25 hw hb, pay15_eq v4 v11 v18 v25 v32 v34 xs w bb h4 h11 h18 h25 hw hb]

/-- The second quotient is the second gate. -/
theorem pay17_eq : k0_pay17 (F := Ideal) (k0_pay3 v4 v11 v18 v25) v32 v34 = Cert.RotMix.gate xs w bb 1 := by
  unfold k0_pay17 Cert.RotMix.gate
  refine (extractAt_00 _).trans ?_
  rw [divf_apply, pay12_eq v4 v11 v18 v25 v32 v34 xs w bb h4 h11 h18 h25 hw hb, pay15_eq v4 v11 v18 v25 v32 v34 xs w bb h4 h11 h18 h25 hw hb]

/-- The third quotient is the third gate. -/
theorem pay18_eq : k0_pay18 (F := Ideal) (k0_pay3 v4 v11 v18 v25) v32 v34 = Cert.RotMix.gate xs w bb 2 := by
  unfold k0_pay18 Cert.RotMix.gate
  refine (extractAt_00 _).trans ?_
  rw [divf_apply, pay13_eq v4 v11 v18 v25 v32 v34 xs w bb h4 h11 h18 h25 hw hb, pay15_eq v4 v11 v18 v25 v32 v34 xs w bb h4 h11 h18 h25 hw hb]

/-- The fourth quotient is the fourth gate. -/
theorem pay19_eq : k0_pay19 (F := Ideal) (k0_pay3 v4 v11 v18 v25) v32 v34 = Cert.RotMix.gate xs w bb 3 := by
  unfold k0_pay19 Cert.RotMix.gate
  refine (extractAt_00 _).trans ?_
  rw [divf_apply, pay14_eq v4 v11 v18 v25 v32 v34 xs w bb h4 h11 h18 h25 hw hb, pay15_eq v4 v11 v18 v25 v32 v34 xs w bb h4 h11 h18 h25 hw hb]

end Gates

/-- The four scalars the body extracts are the four softmax gates of the image whose four 32-row bands were loaded. -/
theorem gate_eq (v4 v11 v18 v25 : Vec Ideal S1x32x128x128 .f32) (v32 : Vec Ideal S4x128 .f32) (v34 : Vec Ideal S1x4 .f32)
    (xs : Fin 128 → Fin 128 → Fin 128 → EReal) (w : Fin 128 → Fin 4 → EReal) (bb : Fin 4 → EReal)
    (h4 : ∀ (p : Fin 32) (q r : Fin 128), v4 (ix4 0 p q r) = xs ⟨p.val, by have := p.isLt; omega⟩ q r)
    (h11 : ∀ (p : Fin 32) (q r : Fin 128), v11 (ix4 0 p q r) = xs ⟨32 + p.val, by have := p.isLt; omega⟩ q r)
    (h18 : ∀ (p : Fin 32) (q r : Fin 128), v18 (ix4 0 p q r) = xs ⟨64 + p.val, by have := p.isLt; omega⟩ q r)
    (h25 : ∀ (p : Fin 32) (q r : Fin 128), v25 (ix4 0 p q r) = xs ⟨96 + p.val, by have := p.isLt; omega⟩ q r)
    (hw : ∀ (j : Fin 4) (c : Fin 128), v32 (ix2 j c) = w c j) (hb : ∀ j : Fin 4, v34 (ix2 0 j) = bb j) :
    k0_pay16 (F := Ideal) (k0_pay3 v4 v11 v18 v25) v32 v34 = Cert.RotMix.gate xs w bb 0
    ∧ k0_pay17 (F := Ideal) (k0_pay3 v4 v11 v18 v25) v32 v34 = Cert.RotMix.gate xs w bb 1
    ∧ k0_pay18 (F := Ideal) (k0_pay3 v4 v11 v18 v25) v32 v34 = Cert.RotMix.gate xs w bb 2
    ∧ k0_pay19 (F := Ideal) (k0_pay3 v4 v11 v18 v25) v32 v34 = Cert.RotMix.gate xs w bb 3 :=
  ⟨pay16_eq v4 v11 v18 v25 v32 v34 xs w bb h4 h11 h18 h25 hw hb, pay17_eq v4 v11 v18 v25 v32 v34 xs w bb h4 h11 h18 h25 hw hb, pay18_eq v4 v11 v18 v25 v32 v34 xs w bb h4 h11 h18 h25 hw hb, pay19_eq v4 v11 v18 v25 v32 v34 xs w bb h4 h11 h18 h25 hw hb⟩

end Cert.KernelIdeal.KWeights

end
-- ==== Proof.KBlock.lean ====
/-
  What one grid point leaves in the output's staging block. The body stores four bands of 32 rows; band k (rows 32k … 32k+31)
  is, up to how the body's text happens to be cut into named pieces, one and the same function of four loaded bands: rows
  32k… of the image as they are, rows 96-32k… reversed in both plane axes, columns 96-32k… (all rows) with the columns
  reversed, and columns 32k… with the rows reversed, the last two gated, added and transposed. Read at row 32k+p, column q this
  is gate 0 · x[32k+p, q] + gate 2 · x[127-(32k+p), 127-q] + gate 1 · x[q, 127-(32k+p)] + gate 3 · x[127-q, 32k+p]:
  the gated sum of the four quarter turns, `RotMix.mix`. The four bands tile the block, so the block is `RotMix.blockOut`.
-/
import proofs.«403186_j78658031059523_4_alg».proof.Proof.Gen.KernelIdeal.Value
import proofs.«403186_j78658031059523_4_alg».proof.Proof.KFlipsRows
import proofs.«403186_j78658031059523_4_alg».proof.Proof.KFlipsCols
import proofs.«403186_j78658031059523_4_alg».proof.Proof.KWeights
import proofs.«403186_j78658031059523_4_alg».proof.Proof.Spec

set_option maxRecDepth 16384

noncomputable section

namespace Cert.KernelIdeal.KBlock

open Cert.KernelIdeal Cert.KernelIdeal.Gen Idealize.ShloMosaic Idealize.ShloMosaic.TcCoe Idealize.ShloMosaic.ValueIdx Idealize.SL.Sem
open Cert.RotMix

/-! ## Loads through a whole staging buffer -/

/-- A band of 32 rows from row `o`, loaded through a whole buffer holding `x0`, reads `x0` at row `o + p`. -/
theorem load_rows (arg1 : Memref sig .tc .vmem S1x128x128x128 .f32) (harg1 : arg1.IsWhole) (x0 : Vec Ideal S1x128x128x128 .f32)
    (o : Nat) (inb : ∀ a, (![0, o, 0, 0] : Fin 4 → Nat) a + S1x32x128x128.size a ≤ S1x128x128x128.size a)
    (p : Fin 32) (q r k : Fin 128) (hk : k.val = o + p.val) :
    View.readAt (Elt Ideal) arg1.view (Rect.unit (s := S1x128x128x128) ![0, o, 0, 0] S1x32x128x128.size inb).toLoadRect (harg1.unread x0) (ix4 0 p q r)
      = x0 (ix4 0 k q r) := by
  rw [View.readAt_eq_ld, harg1.read_unread]
  show x0 _ = x0 _
  refine congrArg x0 (funext fun a => Fin.ext ?_)
  match a with
  | ⟨0, _⟩ => rfl
  | ⟨1, _⟩ => show o + 1 * p.val = k.val; omega
  | ⟨2, _⟩ => show 0 + 1 * q.val = q.val; omega
  | ⟨3, _⟩ => show 0 + 1 * r.val = r.val; omega

/-- A band of 32 columns from column `o` (all rows) reads `x0` at column `o + q`. -/
theorem load_cols (arg1 : Memref sig .tc .vmem S1x128x128x128 .f32) (harg1 : arg1.IsWhole) (x0 : Vec Ideal S1x128x128x128 .f32)
    (o : Nat) (inb : ∀ a, (![0, 0, o, 0] : Fin 4 → Nat) a + S1x128x32x128.size a ≤ S1x128x128x128.size a)
    (p : Fin 128) (q : Fin 32) (r k : Fin 128) (hk : k.val = o + q.val) :
    View.readAt (Elt Ideal) arg1.view (Rect.unit (s := S1x128x128x128) ![0, 0, o, 0] S1x128x32x128.size inb).toLoadRect (harg1.unread x0) (ix4 0 p q r)
      = x0 (ix4 0 p k r) := by
  rw [View.readAt_eq_ld, harg1.read_unread]
  show x0 _ = x0 _
  refine congrArg x0 (funext fun a => Fin.ext ?_)
  match a with
  | ⟨0, _⟩ => rfl
  | ⟨1, _⟩ => show 0 + 1 * p.val = p.val; omega
  | ⟨2, _⟩ => show o + 1 * q.val = k.val; omega
  | ⟨3, _⟩ => show 0 + 1 * r.val = r.val; omega

/-! ## One stored band -/

/-- The stored band in its plainest spelling, at row `p` of the band, column `q`, channel `r`: the gated sum of the four
    quarter turns at row `o + p`, when the four operands are the bands of the image `xs` the turns read. -/
theorem band_apply (g0 g1 g2 g3 : EReal) (A B : Vec Ideal S1x32x128x128 .f32) (C D : Vec Ideal S1x128x32x128 .f32)
    (xs : Fin 128 → Fin 128 → Fin 128 → EReal) (w : Fin 128 → Fin 4 → EReal) (bb : Fin 4 → EReal)
    (hg0 : g0 = gate xs w bb 0) (hg1 : g1 = gate xs w bb 1) (hg2 : g2 = gate xs w bb 2) (hg3 : g3 = gate xs w bb 3)
    (o : Nat) (ho : o + 32 ≤ 128)
    (hA : ∀ (p : Fin 32) (q r k : Fin 128), k.val = o + p.val → A (ix4 0 p q r) = xs k q r)
    (hB : ∀ (p : Fin 32) (q r k : Fin 128), k.val = (96 - o) + p.val → B (ix4 0 p q r) = xs k q r)
    (hC : ∀ (p : Fin 128) (q : Fin 32) (r k : Fin 128), k.val = (96 - o) + q.val → C (ix4 0 p q r) = xs p k r)
    (hD : ∀ (p : Fin 128) (q : Fin 32) (r k : Fin 128), k.val = o + q.val → D (ix4 0 p q r) = xs p k r)
    (p : Fin 32) (q r k : Fin 128) (hk : k.val = o + p.val) :
    k0_pay39 (F := Ideal) g0 g1 g2 g3 (k0_pay20 A) (k0_pay53 B) (k0_pay37 C) (k0_pay38 D) (ix4 0 p q r) = mix xs w bb k q r := by
  have hp := p.isLt
  rw [KFlipsCols.pay39_apply, KFlipsRows.pay20_apply, KFlipsRows.pay53_apply, KFlipsCols.pay37_apply, KFlipsCols.pay38_apply,
    hA p q r k hk, hB p.rev q.rev r k.rev (by rw [Fin.val_rev, Fin.val_rev]; omega),
    hC q p.rev r k.rev (by rw [Fin.val_rev, Fin.val_rev]; omega), hD q.rev p r k hk, hg0, hg1, hg2, hg3]
  rfl

/-! ## The run's gates and bands -/

section Run

variable (c : Dev nD) (i : grid0.Coords) (arg1 : Memref sig .tc .vmem S1x128x128x128 .f32) (harg1 : arg1.IsWhole) (arg2 : Memref sig .tc .vmem S4x128 .f32) (harg2 : arg2.IsWhole) (arg3 : Memref sig .tc .vmem S1x4 .f32) (harg3 : arg3.IsWhole) (arg4 : Memref sig .tc .vmem S1x128x128x128 .f32) (harg4 : arg4.IsWhole)
    (x0 : Vec Ideal S1x128x128x128 .f32) (x1 : Vec Ideal S4x128 .f32) (x2 : Vec Ideal S1x4 .f32)

/-- The image the block holds, by row, column and channel. -/
abbrev img (x0 : Vec Ideal S1x128x128x128 .f32) : Fin 128 → Fin 128 → Fin 128 → EReal := fun h v ch => x0 (ix4 0 h v ch)
/-- The selector as the kernel stages it (rotation × channel), read channel × rotation. -/
abbrev sel (x1 : Vec Ideal S4x128 .f32) : Fin 128 → Fin 4 → EReal := fun ch j => x1 (ix2 j ch)
/-- The bias row. -/
abbrev bias (x2 : Vec Ideal S1x4 .f32) : Fin 4 → EReal := fun j => x2 (ix2 0 j)

/-- A load of the whole of a whole buffer reads its contents. -/
theorem load_whole {S : Shape} (M : Memref sig .tc .vmem S .f32) (hM : M.IsWhole) (X : Vec Ideal S .f32)
    (inb : ∀ a, (fun _ => 0 : Fin S.rank → Nat) a + S.size a ≤ S.size a) (off : Fin S.rank → Nat) (hoff : off = fun _ => 0)
    (inb' : ∀ a, off a + S.size a ≤ S.size a) :
    View.readAt (Elt Ideal) M.view (Rect.unit off S.size inb').toLoadRect (hM.unread X) = X := by
  rw [View.readAt_eq_ld, hM.read_unread, View.ld_unit_zero hoff]

/-- The four scalars the run extracts are the softmax gates of the block's image. -/
theorem gates_run :
    kernelRun0_A.sl.r_1 (F := Ideal) c arg1 harg1 arg2 harg2 arg3 harg3 x0 x1 x2 = gate (img x0) (sel x1) (bias x2) 0
    ∧ kernelRun0_A.sl.r_2 (F := Ideal) c arg1 harg1 arg2 harg2 arg3 harg3 x0 x1 x2 = gate (img x0) (sel x1) (bias x2) 1
    ∧ kernelRun0_A.sl.r_3 (F := Ideal) c arg1 harg1 arg2 harg2 arg3 harg3 x0 x1 x2 = gate (img x0) (sel x1) (bias x2) 2
    ∧ kernelRun0_A.sl.r_4 (F := Ideal) c arg1 harg1 arg2 harg2 arg3 harg3 x0 x1 x2 = gate (img x0) (sel x1) (bias x2) 3 := by
  unfold kernelRun0_A.sl.r_1 kernelRun0_A.sl.r_2 kernelRun0_A.sl.r_3 kernelRun0_A.sl.r_4 kernelRun0_A.sl.r
  refine KWeights.gate_eq _ _ _ _ _ _ (img x0) (sel x1) (bias x2) ?_ ?_ ?_ ?_ ?_ ?_
  · intro p q r; exact load_rows arg1 harg1 x0 0 _ p q r _ (by simp)
  · intro p q r; exact load_rows arg1 harg1 x0 32 _ p q r _ rfl
  · intro p q r; exact load_rows arg1 harg1 x0 64 _ p q r _ rfl
  · intro p q r; exact load_rows arg1 harg1 x0 96 _ p q r _ rfl
  · intro j ch
    rw [load_whole arg2 harg2 x1 (fun a => by simp) _ (by funext a; fin_cases a <;> rfl)]
  · intro j
    rw [load_whole arg3 harg3 x2 (fun a => by simp) _ (by funext a; fin_cases a <;> rfl)]

end Run

/-! ## The four stored bands, each in the plainest spelling -/

section Spellings
variable {F : FTy → Type} [FloatOps F]
variable (g0 g1 g2 g3 : F .f32) (A B : Vec F S1x32x128x128 .f32) (C D : Vec F S1x128x32x128 .f32)

/-- Band 0's reversed row band is spelt through fifteen named slices; it is the one reversal. -/
theorem band0_spelling : k0_pay39 g0 g1 g2 g3 (k0_pay20 A) (k0_pay36 (k0_pay21 B) (k0_pay22 B) (k0_pay23 B) (k0_pay24 B) (k0_pay25 B) (k0_pay26 B) (k0_pay27 B) (k0_pay28 B) (k0_pay29 B) (k0_pay30 B) (k0_pay31 B) (k0_pay32 B) (k0_pay33 B) (k0_pay34 B) (k0_pay35 B)) (k0_pay37 C) (k0_pay38 D)
    = k0_pay39 g0 g1 g2 g3 (k0_pay20 A) (k0_pay53 B) (k0_pay37 C) (k0_pay38 D) := rfl

/-- Band 1: the same operations, cut into other named pieces. -/
theorem band1_spelling : k0_pay51 g0 g1 g2 g3 (k0_pay40 A) (k0_pay43 (k0_pay41 B) (k0_pay42 B)) (k0_pay44 C) (k0_pay45 D) (k0_pay46 D) (k0_pay47 D) (k0_pay48 D) (k0_pay49 D) (k0_pay50 D)
    = k0_pay39 g0 g1 g2 g3 (k0_pay20 A) (k0_pay53 B) (k0_pay37 C) (k0_pay38 D) := rfl

/-- Band 2. -/
theorem band2_spelling : k0_pay61 (k0_pay60 g0 g1 g2 g3 (k0_pay52 A) (k0_pay53 B) (k0_pay54 C) (k0_pay55 C) (k0_pay56 C) (k0_pay57 C) (k0_pay58 C) (k0_pay59 C) D)
    = k0_pay39 g0 g1 g2 g3 (k0_pay20 A) (k0_pay53 B) (k0_pay37 C) (k0_pay38 D) := rfl

/-- Band 3. -/
theorem band3_spelling : k0_pay2 g0 g1 g2 g3 (k0_pay62 A) (k0_pay72 (k0_pay63 B) (k0_pay64 B) (k0_pay65 B) (k0_pay66 B) (k0_pay67 B) (k0_pay68 B) (k0_pay69 B) (k0_pay70 B) (k0_pay71 B)) (k0_pay73 C) (k0_pay1 (k0_pay74 D) (k0_pay75 D) (k0_pay76 D) (k0_pay77 D) (k0_pay78 D) (k0_pay79 D) (k0_pay80 D) (k0_pay81 D) (k0_pay82 D) (k0_pay83 D) (k0_pay84 D) (k0_pay85 D) (k0_pay86 D))
    = k0_pay39 g0 g1 g2 g3 (k0_pay20 A) (k0_pay53 B) (k0_pay37 C) (k0_pay38 D) := rfl

end Spellings

/-! ## The block -/

section Block

variable (c : Dev nD) (i : grid0.Coords) (arg1 : Memref sig .tc .vmem S1x128x128x128 .f32) (harg1 : arg1.IsWhole) (arg2 : Memref sig .tc .vmem S4x128 .f32) (harg2 : arg2.IsWhole) (arg3 : Memref sig .tc .vmem S1x4 .f32) (harg3 : arg3.IsWhole) (arg4 : Memref sig .tc .vmem S1x128x128x128 .f32) (harg4 : arg4.IsWhole)
    (x0 : Vec Ideal S1x128x128x128 .f32) (x1 : Vec Ideal S4x128 .f32) (x2 : Vec Ideal S1x4 .f32)

/-- The gated sum does not care how its three coordinates are spelt. -/
theorem mix_congr (xs : Fin 128 → Fin 128 → Fin 128 → EReal) (w : Fin 128 → Fin 4 → EReal) (bb : Fin 4 → EReal)
    {a a' b b' d d' : Fin 128} (ha : a = a') (hb : b = b') (hd : d = d') : mix xs w bb a b d = mix xs w bb a' b' d' := by
  subst ha hb hd; rfl

/-- What the body leaves in the output's staging block, at every index: the gated sum of the four quarter turns of the
    image the input block holds. -/
theorem block_apply (y : S1x128x128x128.Idx) :
    out0_A_3 (F := Ideal) c i arg1 harg1 arg2 harg2 arg3 harg3 arg4 harg4 x0 x1 x2 y = blockOut x0 x1 x2 y := by
  unfold out0_A_3
  rw [View.read_writes_eq_canon _ _ _ (cover0_A_3 c i arg1 harg1 arg2 harg2 arg3 harg3 arg4 harg4 x0 x1 x2)]
  refine View.canon_apply_of_pieces (blockOut x0 x1 x2) _ ?_ y (cover0_A_3 c i arg1 harg1 arg2 harg2 arg3 harg3 arg4 harg4 x0 x1 x2 y)
  obtain ⟨hg0, hg1, hg2, hg3⟩ := gates_run c arg1 harg1 arg2 harg2 arg3 harg3 x0 x1 x2
  unfold kernelRun0_A
  dsimp only
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨u, p, q, r, rfl⟩ : ∃ (u : Fin 1) (p : Fin 32) (q r : Fin 128), x = ix4 u p q r := ⟨x 0, x 1, x 2, x 3, eq_ix4 x⟩
    obtain rfl : u = 0 := Subsingleton.elim _ _
    have hp := p.isLt
    dsimp only
    refine ((congrFun (band3_spelling _ _ _ _ _ _ _ _) _).trans
      (band_apply _ _ _ _ _ _ _ _ (img x0) (sel x1) (bias x2) hg0 hg1 hg2 hg3 96 (by omega)
        (fun p q r k hk => load_rows arg1 harg1 x0 96 _ p q r k hk)
        (fun p q r k hk => load_rows arg1 harg1 x0 0 _ p q r k (by omega))
        (fun p q r k hk => load_cols arg1 harg1 x0 0 _ p q r k (by omega))
        (fun p q r k hk => load_cols arg1 harg1 x0 96 _ p q r k hk)
        p q r ⟨96 + p.val, by omega⟩ rfl)).trans ?_
    exact mix_congr _ _ _ (Fin.ext (by show (96 + p.val : ℕ) = 96 + 1 * p.val; omega))
      (Fin.ext (by show (q.val : ℕ) = 0 + 1 * q.val; omega)) (Fin.ext (by show (r.val : ℕ) = 0 + 1 * r.val; omega))
  · intro x
    obtain ⟨u, p, q, r, rfl⟩ : ∃ (u : Fin 1) (p : Fin 32) (q r : Fin 128), x = ix4 u p q r := ⟨x 0, x 1, x 2, x 3, eq_ix4 x⟩
    obtain rfl : u = 0 := Subsingleton.elim _ _
    have hp := p.isLt
    dsimp only
    refine ((congrFun (band2_spelling _ _ _ _ _ _ _ _) _).trans
      (band_apply _ _ _ _ _ _ _ _ (img x0) (sel x1) (bias x2) hg0 hg1 hg2 hg3 64 (by omega)
        (fun p q r k hk => load_rows arg1 harg1 x0 64 _ p q r k hk)
        (fun p q r k hk => load_rows arg1 harg1 x0 32 _ p q r k (by omega))
        (fun p q r k hk => load_cols arg1 harg1 x0 32 _ p q r k (by omega))
        (fun p q r k hk => load_cols arg1 harg1 x0 64 _ p q r k hk)
        p q r ⟨64 + p.val, by omega⟩ rfl)).trans ?_
    exact mix_congr _ _ _ (Fin.ext (by show (64 + p.val : ℕ) = 64 + 1 * p.val; omega))
      (Fin.ext (by show (q.val : ℕ) = 0 + 1 * q.val; omega)) (Fin.ext (by show (r.val : ℕ) = 0 + 1 * r.val; omega))
  · intro x
    obtain ⟨u, p, q, r, rfl⟩ : ∃ (u : Fin 1) (p : Fin 32) (q r : Fin 128), x = ix4 u p q r := ⟨x 0, x 1, x 2, x 3, eq_ix4 x⟩
    obtain rfl : u = 0 := Subsingleton.elim _ _
    have hp := p.isLt
    dsimp only
    refine ((congrFun (band1_spelling _ _ _ _ _ _ _ _) _).trans
      (band_apply _ _ _ _ _ _ _ _ (img x0) (sel x1) (bias x2) hg0 hg1 hg2 hg3 32 (by omega)
        (fun p q r k hk => load_rows arg1 harg1 x0 32 _ p q r k hk)
        (fun p q r k hk => load_rows arg1 harg1 x0 64 _ p q r k (by omega))
        (fun p q r k hk => load_cols arg1 harg1 x0 64 _ p q r k (by omega))
        (fun p q r k hk => load_cols arg1 harg1 x0 32 _ p q r k hk)
        p q r ⟨32 + p.val, by omega⟩ rfl)).trans ?_
    exact mix_congr _ _ _ (Fin.ext (by show (32 + p.val : ℕ) = 32 + 1 * p.val; omega))
      (Fin.ext (by show (q.val : ℕ) = 0 + 1 * q.val; omega)) (Fin.ext (by show (r.val : ℕ) = 0 + 1 * r.val; omega))
  · intro x
    obtain ⟨u, p, q, r, rfl⟩ : ∃ (u : Fin 1) (p : Fin 32) (q r : Fin 128), x = ix4 u p q r := ⟨x 0, x 1, x 2, x 3, eq_ix4 x⟩
    obtain rfl : u = 0 := Subsingleton.elim _ _
    have hp := p.isLt
    dsimp only
    refine ((congrFun (band0_spelling _ _ _ _ _ _ _ _) _).trans
      (band_apply _ _ _ _ _ _ _ _ (img x0) (sel x1) (bias x2) hg0 hg1 hg2 hg3 0 (by omega)
        (fun p q r k hk => load_rows arg1 harg1 x0 0 _ p q r k hk)
        (fun p q r k hk => load_rows arg1 harg1 x0 96 _ p q r k (by omega))
        (fun p q r k hk => load_cols arg1 harg1 x0 96 _ p q r k (by omega))
        (fun p q r k hk => load_cols arg1 harg1 x0 0 _ p q r k hk)
        p q r ⟨0 + p.val, by omega⟩ rfl)).trans ?_
    exact mix_congr _ _ _ (Fin.ext (by show (0 + p.val : ℕ) = 0 + 1 * p.val; omega))
      (Fin.ext (by show (q.val : ℕ) = 0 + 1 * q.val; omega)) (Fin.ext (by show (r.val : ℕ) = 0 + 1 * r.val; omega))

end Block

end Cert.KernelIdeal.KBlock

end
-- ==== Proof.KValue.lean ====
/-
  From the staging block to the whole result array. Grid point t handles image t: the input window's block at point t is
  image t of the argument, the two small windows hold the transposed selector and the bias row whole (what @main's two
  host operations made of the arguments), and what the point writes back is block t of the output. So the block the body
  leaves, `RotMix.blockOut` of those three blocks, is image t of `RotMix.out` of the three arguments; the 32 blocks tile the
  array, which therefore ends holding `RotMix.out`.
-/
import proofs.«403186_j78658031059523_4_alg».proof.Proof.KBlock
import Idealize.ShloMosaic.Lib.StableHlo.Run
import Idealize.ShloMosaic.Lib.ValueLayout

set_option maxRecDepth 16384

noncomputable section

namespace Cert.KernelIdeal.KValue

open Cert.KernelIdeal Cert.KernelIdeal.Gen Cert.KernelIdeal.Value Idealize.ShloMosaic Idealize.ShloMosaic.TcCoe
open Idealize.ShloMosaic.ValueIdx Idealize.SL.Sem Idealize.ShloMosaic.StableHlo
open Idealize.ShloMosaic.Pipeline (Dat)
open Cert.RotMix

variable (m : (ℓ : Loc nD τ sig) → Buf (Elt Ideal) ℓ) (ρ : Dev nD → PrngReg)

/-- The three arguments as launched. -/
abbrev argX (c : Dev nD) : S32x128x128x128.Idx → EReal := m ((c : Thread nD τ).loc main_arg0)
abbrev argW (c : Dev nD) : S128x4.Idx → EReal := m ((c : Thread nD τ).loc main_arg1)
abbrev argB (c : Dev nD) : S4.Idx → EReal := m ((c : Thread nD τ).loc main_arg2)

/-- When the region is entered the selector's buffer holds the argument transposed, -/
theorem V_sel (c : Dev nD) :
    (V m c main_v0 : S4x128.Idx → EReal) = transpose S4x128 [1, 0] (argW m c) transposes_S128x4_S4x128_1_0 := by
  dsimp only [Gen.V, Gen.hostOps0]; after_results

/-- and the bias's buffer the argument as a row. -/
theorem V_bias (c : Dev nD) : (V m c main_v1 : S1x4.Idx → EReal) = shapeCast S1x4 (argB m c) shapeCasts_S4_S1x4 := by
  dsimp only [Gen.V, Gen.hostOps0]; after_results; rfl

/-- The index maps, decided over the 32 grid points: point t takes block (t, 0, 0, 0) of the image batch and of the result,
    and block (0, 0) of the two small operands. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The image block at point t is image t of the argument. -/
theorem xblk_apply (c : Dev nD) (t : Fin cfg0.N) (h v ch : Fin 128) (b : Fin 32) (hb : b.val = t.val) :
    (iblk m c 0 t : Vec Ideal S1x128x128x128 .f32) (ix4 0 h v ch) = argX m c (ix4 b h v ch) := by
  obtain ⟨e0, e1, e2, e3, -⟩ := idx_facts t
  show V m c main_arg0 (((cfg0.win 0).blk t).view.emb (ix4 0 h v ch)) = _
  rw [V_main_arg0]
  refine congrArg _ (funext fun a => Fin.ext ?_)
  match a with
  | ⟨0, _⟩ => show win0_0.index t (0 : Fin 4) * 1 + 1 * 0 = b.val; omega
  | ⟨1, _⟩ => show win0_0.index t (1 : Fin 4) * 128 + 1 * h.val = h.val; omega
  | ⟨2, _⟩ => show win0_0.index t (2 : Fin 4) * 128 + 1 * v.val = v.val; omega
  | ⟨3, _⟩ => show win0_0.index t (3 : Fin 4) * 128 + 1 * ch.val = ch.val; omega

/-- The selector block is the selector transposed: rotation k, channel ch. -/
theorem wblk_apply (c : Dev nD) (t : Fin cfg0.N) (k : Fin 4) (ch : Fin 128) :
    (iblk m c 1 t : Vec Ideal S4x128 .f32) (ix2 k ch) = argW m c (ix2 ch k) := by
  obtain ⟨-, -, -, -, e0, e1, -⟩ := idx_facts t
  show V m c main_v0 (((cfg0.win 1).blk t).view.emb (ix2 k ch)) = _
  have he : ((cfg0.win 1).blk t).view.emb (ix2 k ch) = ix2 k ch := by
    funext a; apply Fin.ext
    match a with
    | ⟨0, _⟩ => show win0_1.index t (0 : Fin 2) * 4 + 1 * k.val = k.val; omega
    | ⟨1, _⟩ => show win0_1.index t (1 : Fin 2) * 128 + 1 * ch.val = ch.val; omega
  rw [he, V_sel]
  exact transpose_ix2_apply _ _ k ch

/-- The bias block is the bias as a row. -/
theorem bblk_apply (c : Dev nD) (t : Fin cfg0.N) (k : Fin 4) :
    (iblk m c 2 t : Vec Ideal S1x4 .f32) (ix2 0 k) = argB m c (ix1 k) := by
  obtain ⟨-, -, -, -, -, -, e0, e1, -⟩ := idx_facts t
  show V m c main_v1 (((cfg0.win 2).blk t).view.emb (ix2 0 k)) = _
  have he : ((cfg0.win 2).blk t).view.emb (ix2 0 k) = ix2 0 k := by
    funext a; apply Fin.ext
    match a with
    | ⟨0, _⟩ => show win0_2.index t (0 : Fin 2) * 1 + 1 * 0 = 0; omega
    | ⟨1, _⟩ => show win0_2.index t (1 : Fin 2) * 4 + 1 * k.val = k.val; omega
  rw [he, V_bias]
  exact shapeCast_a_1a_apply _ _ 0 k

/-- WHAT POINT t WRITES BACK is block t of the gated sum of quarter turns of the arguments. -/
theorem flushed_eq (c : Dev nD) (t : Fin cfg0.N) :
    (dats m 0 c).flushed 3 t = ((cfg0.win 3).blk t).view.read (Elt Ideal) (out (argX m c) (argW m c) (argB m c)) := by
  rw [flushed3_A]
  obtain ⟨-, -, -, -, -, -, -, -, e0, e1, e2, e3⟩ := idx_facts t
  funext j
  obtain ⟨u, i, k, ch, rfl⟩ : ∃ (u : Fin 1) (i k ch : Fin 128), j = ix4 u i k ch := ⟨j 0, j 1, j 2, j 3, eq_ix4 j⟩
  obtain rfl : u = 0 := Subsingleton.elim _ _
  have ht : t.val < 32 := t.isLt
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) (ix4 0 i k ch)
    = out (argX m c) (argW m c) (argB m c) (((cfg0.win 3).blk t).view.emb (ix4 0 i k ch))
  refine (KBlock.block_apply c (grid0.coords t) (ms0_0 t) (hs0_0 t) (ms0_1 t) (hs0_1 t) (ms0_2 t) (hs0_2 t) (ms0_3 t) (hs0_3 t)
    (iblk m c 0 t) (iblk m c 1 t) (iblk m c 2 t) (ix4 0 i k ch)).trans ?_
  have hx : (fun h v ch' => (iblk m c 0 t : Vec Ideal S1x128x128x128 .f32) (ix4 0 h v ch'))
      = fun h v ch' => argX m c (ix4 (⟨t.val, ht⟩ : Fin 32) h v ch') :=
    funext fun h => funext fun v => funext fun ch' => xblk_apply m c t h v ch' ⟨t.val, ht⟩ rfl
  have hw : (fun ch' k' => (iblk m c 1 t : Vec Ideal S4x128 .f32) (ix2 k' ch')) = fun ch' k' => argW m c (ix2 ch' k') :=
    funext fun ch' => funext fun k' => wblk_apply m c t k' ch'
  have hb : (fun k' => (iblk m c 2 t : Vec Ideal S1x4 .f32) (ix2 0 k')) = fun k' => argB m c (ix1 k') :=
    funext fun k' => bblk_apply m c t k'
  show mix (fun h v ch' => (iblk m c 0 t : Vec Ideal S1x128x128x128 .f32) (ix4 0 h v ch'))
      (fun ch' k' => (iblk m c 1 t : Vec Ideal S4x128 .f32) (ix2 k' ch')) (fun k' => (iblk m c 2 t : Vec Ideal S1x4 .f32) (ix2 0 k')) i k ch = _
  rw [hx, hw, hb]
  have h0 : (((cfg0.win 3).blk t).view.emb (ix4 0 i k ch)) 0 = (⟨t.val, ht⟩ : Fin 32) :=
    Fin.ext (by show win0_3.index t (0 : Fin 4) * 1 + 1 * 0 = t.val; omega)
  show _ = mix (fun h v ch' => argX m c (ix4 ((((cfg0.win 3).blk t).view.emb (ix4 0 i k ch)) 0) h v ch')) _ _ _ _ _
  rw [h0]
  exact KBlock.mix_congr _ _ _
    (Fin.ext (by show i.val = win0_3.index t (1 : Fin 4) * 128 + 1 * i.val; omega))
    (Fin.ext (by show k.val = win0_3.index t (2 : Fin 4) * 128 + 1 * k.val; omega))
    (Fin.ext (by show ch.val = win0_3.index t (3 : Fin 4) * 128 + 1 * ch.val; omega))

/-- An index of the result is in point t's block iff each coordinate is in the block's range on its axis. -/
theorem mem_blk (t : Fin cfg0.N) (i : S32x128x128x128.Idx) :
    i ∈ ((cfg0.win 3).blk t).view.set ↔ ∀ a : Fin 4, win0_3.index t a * S1x128x128x128.size a ≤ (i a).val
      ∧ (i a).val < win0_3.index t a * S1x128x128x128.size a + S1x128x128x128.size a := by
  show i ∈ ((View.whole main_v2).slice (win0_3.rect t)).set ↔ _
  rw [View.set_slice_whole, Rect.mem_set_unit]
  exact Iff.rfl

/-- Every index of the result lies in the block of the point its image number names. -/
theorem cover (i : S32x128x128x128.Idx) :
    ∃ t : Fin cfg0.N, (cfg0.win 3).flush t = true ∧ i ∈ ((cfg0.win 3).blk t).view.set := by
  have hi0 : (i 0).val < 32 := (i 0).isLt
  have hi1 : (i 1).val < 128 := (i 1).isLt
  have hi2 : (i 2).val < 128 := (i 2).isLt
  have hi3 : (i 3).val < 128 := (i 3).isLt
  refine ⟨⟨(i 0).val, hi0⟩, flush0_3 _, ?_⟩
  obtain ⟨-, -, -, -, -, -, -, -, e0, e1, e2, e3⟩ := idx_facts ⟨(i 0).val, hi0⟩
  rw [mem_blk]
  intro a
  match a with
  | ⟨0, _⟩ => show win0_3.index ⟨(i 0).val, hi0⟩ (0 : Fin 4) * 1 ≤ (i 0).val ∧ (i 0).val < win0_3.index ⟨(i 0).val, hi0⟩ (0 : Fin 4) * 1 + 1; simp only at e0; omega
  | ⟨1, _⟩ => show win0_3.index ⟨(i 0).val, hi0⟩ (1 : Fin 4) * 128 ≤ (i 1).val ∧ (i 1).val < win0_3.index ⟨(i 0).val, hi0⟩ (1 : Fin 4) * 128 + 128; omega
  | ⟨2, _⟩ => show win0_3.index ⟨(i 0).val, hi0⟩ (2 : Fin 4) * 128 ≤ (i 2).val ∧ (i 2).val < win0_3.index ⟨(i 0).val, hi0⟩ (2 : Fin 4) * 128 + 128; omega
  | ⟨3, _⟩ => show win0_3.index ⟨(i 0).val, hi0⟩ (3 : Fin 4) * 128 ≤ (i 3).val ∧ (i 3).val < win0_3.index ⟨(i 0).val, hi0⟩ (3 : Fin 4) * 128 + 128; omega

/-- THE RESULT ARRAY after the run. -/
theorem final (c : Dev nD) : (dats m 0 c).arrAt 3 cfg0.N = out (argX m c) (argW m c) (argB m c) :=
  (dats m 0 c).arrAt_eq_of_cover 3 (out (argX m c) (argW m c) (argB m c)) (fun t _ => flushed_eq m c t) cover

/-- The kernel's run: the result at the gated sum of quarter turns of the arguments, the arguments unchanged. -/
theorem run : θ_run defs (onTc (τ := τ) (main (F := Ideal))) ⟨m, fun _ => 0, ρ⟩ fun r => ∀ c : Dev nD,
      r.2.mem ((c : Thread nD τ).loc main_v2) = out (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KValue

end
-- ==== Proof.RefTerm.lean ====
/-
  The reference's result as one term of its three argument arrays: the operations of its @main composed in order.
  `gates` is the selector — the mean over rows and columns, the product with the selector matrix, the bias, and the
  softmax over the four rotations —; `col g off` is column `off 1` of the gates spread over a whole image batch;
  `refOut` adds, onto a zero array, the image and its three quarter turns (a reversal and a transposition of the two
  plane axes in the orders jnp's rot90 applies them), each times its gate.
-/
import proofs.«403186_j78658031059523_4_alg».proof.ReferenceIdeal

noncomputable section

namespace Cert.ReferenceIdeal.RefTerm

open Cert.ReferenceIdeal Idealize.ShloMosaic Idealize.SL.Sem

variable {F : FTy → Type} [FloatOps F] [Facts]
open Facts₀ Facts

/-- The softmax gates of every image: [32, 4]. -/
def gates (X : FVec F S32x128x128x128 .f32) (W : FVec F S128x4 .f32) (B : FVec F S4 .f32) : FVec F S32x4 .f32 :=
  have v0 : FVec F S32x128 .f32 := Host.reduceAdd X (constant S_ .f32 0x00000000#32) reducesTo_S32x128x128x128_S32x128_d1_2 h_S_
  have v1 : FVec F S32x128 .f32 := broadcastInDim S32x128 ![] bcast_S_S32x128 (constant S_ .f32 0x46800000#32)
  have v2 : FVec F S32x128 .f32 := Host.divf v0 v1
  have v3 : FVec F S32x4 .f32 := Host.dotGeneral dot_S32x128_S128x4_S32x4_1_0_0_1_n_n none v2 W
  have v4 : FVec F S1x4 .f32 := broadcastInDim S1x4 ![1] bcast_S4_S1x4_1 B
  have v5 : FVec F S32x4 .f32 := broadcastInDim S32x4 ![0, 1] bcast_S1x4_S32x4_0_1 v4
  have v6 : FVec F S32x4 .f32 := addf v3 v5
  have v7 : FVec F S32 .f32 := Host.reduce FloatOps.maximumf v6 (constant S_ .f32 0xFF800000#32) reducesTo_S32x4_S32_d1 h_S_
  have v8 : FVec F S32 .f32 := broadcastInDim S32 ![] bcast_S_S32 (constant S_ .f32 0xFF800000#32)
  have v9 : FVec F S32 .f32 := maximumf v8 v7
  have v10 : FVec F S32x1 .f32 := broadcastInDim S32x1 ![0] bcast_S32_S32x1_0 v9
  have v11 : FVec F S32x4 .f32 := broadcastInDim S32x4 ![0, 1] bcast_S32x1_S32x4_0_1 v10
  have v12 : FVec F S32x4 .f32 := subf v6 v11
  have v13 : FVec F S32x4 .f32 := Host.exp v12
  have v14 : FVec F S32 .f32 := Host.reduceAdd v13 (constant S_ .f32 0x00000000#32) reducesTo_S32x4_S32_d1 h_S_
  have v15 : FVec F S32x1 .f32 := broadcastInDim S32x1 ![0] bcast_S32_S32x1_0 v14
  have v16 : FVec F S32x4 .f32 := broadcastInDim S32x4 ![0, 1] bcast_S32x1_S32x4_0_1 v15
  Host.divf v13 v16

/-- One column of the gates, spread over the batch of images: [32, 4] → [32, 1] → [32] → [32, 1, 1, 1] → [32, 128, 128, 128]. -/
def col (g : FVec F S32x4 .f32) (off : Fin S32x4.rank → Nat) (h : S32x4.Slices off S32x1) : FVec F S32x128x128x128 .f32 :=
  broadcastInDim S32x128x128x128 ![0, 1, 2, 3] bcast_S32x1x1x1_S32x128x128x128_0_1_2_3
    (broadcastInDim S32x1x1x1 ![0] bcast_S32_S32x1x1x1_0
      (shapeCast S32 (extractStridedSlice S32x1 off g h) shapeCasts_S32x1_S32))

/-- The reference's result. -/
def refOut (X : FVec F S32x128x128x128 .f32) (W : FVec F S128x4 .f32) (B : FVec F S4 .f32) : FVec F S32x128x128x128 .f32 :=
  have g : FVec F S32x4 .f32 := gates X W B
  have z : FVec F S32x128x128x128 .f32 := broadcastInDim S32x128x128x128 ![] bcast_S_S32x128x128x128 (constant S_ .f32 0x00000000#32)
  have r1 : FVec F S32x128x128x128 .f32 :=
    transpose S32x128x128x128 [0, 2, 1, 3] (Host.reverse [2] X) transposes_S32x128x128x128_S32x128x128x128_0_2_1_3
  have r2 : FVec F S32x128x128x128 .f32 := Host.reverse [2] (Host.reverse [1] X)
  have r3 : FVec F S32x128x128x128 .f32 :=
    Host.reverse [2] (transpose S32x128x128x128 [0, 2, 1, 3] X transposes_S32x128x128x128_S32x128x128x128_0_2_1_3)
  addf (addf (addf (addf z (mulf X (col g ![0, 0] slices_S32x4_S32x1_0_0)))
        (mulf r1 (col g ![0, 1] slices_S32x4_S32x1_0_1)))
      (mulf r2 (col g ![0, 2] slices_S32x4_S32x1_0_2)))
    (mulf r3 (col g ![0, 3] slices_S32x4_S32x1_0_3))

end Cert.ReferenceIdeal.RefTerm

end
-- ==== Proof.RefRun.lean ====
/-
  The reference's @main is a straight line of host operations (the bodies of the four rot90 functions inlined at their calls);
  its run ends with the result buffer at `RefTerm.refOut` of the argument arrays, the arguments unchanged.
-/
import proofs.«403186_j78658031059523_4_alg».proof.Proof.Gen.ReferenceIdeal
import proofs.«403186_j78658031059523_4_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 55 operations, in order: its own forty-nine and, at each of the three quarter turns that move anything, the
    two operations of the called function's body over that call's buffers (a reversal and a transposition of the plane axes, in
    the order the function applies them); the quarter turn by zero is no operation, and its call returns its argument. -/
abbrev ops : List (HloOp τ sig (Elt F)) :=
  [ StableHlo.nullary main_cst (constant S_ .f32 0x00000000#32),
    StableHlo.binary main_arg0 main_cst main_v0 ((fun x v => Host.reduceAdd x v reducesTo_S32x128x128x128_S32x128_d1_2 h_S_) : (⟨S32x128x128x128, .f32⟩ : BufTy).Contents (Elt F) → (⟨S_, .f32⟩ : BufTy).Contents (Elt F) → (⟨S32x128, .f32⟩ : BufTy).Contents (Elt F)),
    StableHlo.nullary main_cst_0 (constant S_ .f32 0x46800000#32),
    StableHlo.unary main_cst_0 main_v1 (broadcastInDim S32x128 ![] bcast_S_S32x128 : (⟨S_, .f32⟩ : BufTy).Contents (Elt F) → (⟨S32x128, .f32⟩ : BufTy).Contents (Elt F)),
    StableHlo.binary main_v0 main_v1 main_v2 (Host.divf : (⟨S32x128, .f32⟩ : BufTy).Contents (Elt F) → (⟨S32x128, .f32⟩ : BufTy).Contents (Elt F) → (⟨S32x128, .f32⟩ : BufTy).Contents (Elt F)),
    StableHlo.binary main_v2 main_arg1 main_v3 ((fun l r => Host.dotGeneral dot_S32x128_S128x4_S32x4_1_0_0_1_n_n none l r) : (⟨S32x128, .f32⟩ : BufTy).Contents (Elt F) → (⟨S128x4, .f32⟩ : BufTy).Contents (Elt F) → (⟨S32x4, .f32⟩ : BufTy).Contents (Elt F)),
    StableHlo.unary main_arg2 main_v4 (broadcastInDim S1x4 ![1] bcast_S4_S1x4_1 : (⟨S4, .f32⟩ : BufTy).Contents (Elt F) → (⟨S1x4, .f32⟩ : BufTy).Contents (Elt F)),
    StableHlo.unary main_v4 main_v5 (broadcastInDim S32x4 ![0, 1] bcast_S1x4_S32x4_0_1 : (⟨S1x4, .f32⟩ : BufTy).Contents (Elt F) → (⟨S32x4, .f32⟩ : BufTy).Contents (Elt F)),
    StableHlo.binary main_v3 main_v5 main_v6 (addf : (⟨S32x4, .f32⟩ : BufTy).Contents (Elt F) → (⟨S32x4, .f32⟩ : BufTy).Contents (Elt F) → (⟨S32x4, .f32⟩ : BufTy).Contents (Elt F)),
    StableHlo.nullary main_cst_1 (constant S_ .f32 0xFF800000#32),
    StableHlo.binary main_v6 main_cst_1 main_v7 ((fun x v => Host.reduce FloatOps.maximumf x v reducesTo_S32x4_S32_d1 h_S_) : (⟨S32x4, .f32⟩ : BufTy).Contents (Elt F) → (⟨S_, .f32⟩ : BufTy).Contents (Elt F) → (⟨S32, .f32⟩ : BufTy).Contents (Elt F)),
    StableHlo.nullary main_cst_2 (constant S_ .f32 0xFF800000#32),
    StableHlo.unary main_cst_2 main_v8 (broadcastInDim S32 ![] bcast_S_S32 : (⟨S_, .f32⟩ : BufTy).Contents (Elt F) → (⟨S32, .f32⟩ : BufTy).Contents (Elt F)),
    StableHlo.binary main_v8 main_v7 main_v9 (maximumf : (⟨S32, .f32⟩ : BufTy).Contents (Elt F) → (⟨S32, .f32⟩ : BufTy).Contents (Elt F) → (⟨S32, .f32⟩ : BufTy).Contents (Elt F)),
    StableHlo.unary main_v9 main_v10 (broadcastInDim S32x1 ![0] bcast_S32_S32x1_0 : (⟨S32, .f32⟩ : BufTy).Contents (Elt F) → (⟨S32x1, .f32⟩ : BufTy).Contents (Elt F)),
    StableHlo.unary main_v10 main_v11 (broadcastInDim S32x4 ![0, 1] bcast_S32x1_S32x4_0_1 : (⟨S32x1, .f32⟩ : BufTy).Contents (Elt F) → (⟨S32x4, .f32⟩ : BufTy).Contents (Elt F)),
    StableHlo.binary main_v6 main_v11 main_v12 (subf : (⟨S32x4, .f32⟩ : BufTy).Contents (Elt F) → (⟨S32x4, .f32⟩ : BufTy).Contents (Elt F) → (⟨S32x4, .f32⟩ : BufTy).Contents (Elt F)),
    StableHlo.unary main_v12 main_v13 (Host.exp : (⟨S32x4, .f32⟩ : BufTy).Contents (Elt F) → (⟨S32x4, .f32⟩ : BufTy).Contents (Elt F)),
    StableHlo.nullary main_cst_3 (constant S_ .f32 0x00000000#32),
    StableHlo.binary main_v13 main_cst_3 main_v14 ((fun x v => Host.reduceAdd x v reducesTo_S32x4_S32_d1 h_S_) : (⟨S32x4, .f32⟩ : BufTy).Contents (Elt F) → (⟨S_, .f32⟩ : BufTy).Contents (Elt F) → (⟨S32, .f32⟩ : BufTy).Contents (Elt F)),
    StableHlo.unary main_v14 main_v15 (broadcastInDim S32x1 ![0] bcast_S32_S32x1_0 : (⟨S32, .f32⟩ : BufTy).Contents (Elt F) → (⟨S32x1, .f32⟩ : BufTy).Contents (Elt F)),
    StableHlo.unary main_v15 main_v16 (broadcastInDim S32x4 ![0, 1] bcast_S32x1_S32x4_0_1 : (⟨S32x1, .f32⟩ : BufTy).Contents (Elt F) → (⟨S32x4, .f32⟩ : BufTy).Contents (Elt F)),
    StableHlo.binary main_v13 main_v16 main_v17 (Host.divf : (⟨S32x4, .f32⟩ : BufTy).Contents (Elt F) → (⟨S32x4, .f32⟩ : BufTy).Contents (Elt F) → (⟨S32x4, .f32⟩ : BufTy).Contents (Elt F)),
    StableHlo.nullary main_cst_4 (constant S_ .f32 0x00000000#32),
    StableHlo.unary main_cst_4 main_v18 (broadcastInDim S32x128x128x128 ![] bcast_S_S32x128x128x128 : (⟨S_, .f32⟩ : BufTy).Contents (Elt F) → (⟨S32x128x128x128, .f32⟩ : BufTy).Contents (Elt F)),
    StableHlo.unary main_v17 main_v20 ((extractStridedSlice S32x1 ![0, 0] · slices_S32x4_S32x1_0_0) : (⟨S32x4, .f32⟩ : BufTy).Contents (Elt F) → (⟨S32x1, .f32⟩ : BufTy).Contents (Elt F)),
    StableHlo.reshape main_v20 main_v21 rfl shapeCasts_S32x1_S32,
    StableHlo.unary main_v21 main_v22 (broadcastInDim S32x1x1x1 ![0] bcast_S32_S32x1x1x1_0 : (⟨S32, .f32⟩ : BufTy).Contents (Elt F) → (⟨S32x1x1x1, .f32⟩ : BufTy).Contents (Elt F)),
    StableHlo.unary main_v22 main_v23 (broadcastInDim S32x128x128x128 ![0, 1, 2, 3] bcast_S32x1x1x1_S32x128x128x128_0_1_2_3 : (⟨S32x1x1x1, .f32⟩ : BufTy).Contents (Elt F) → (⟨S32x128x128x128, .f32⟩ : BufTy).Contents (Elt F)),
    StableHlo.binary main_arg0 main_v23 main_v24 (mulf : (⟨S32x128x128x128, .f32⟩ : BufTy).Contents (Elt F) → (⟨S32x128x128x128, .f32⟩ : BufTy).Contents (Elt F) → (⟨S32x128x128x128, .f32⟩ : BufTy).Contents (Elt F)),
    StableHlo.binary main_v18 main_v24 main_v25 (addf : (⟨S32x128x128x128, .f32⟩ : BufTy).Contents (Elt F) → (⟨S32x128x128x128, .f32⟩ : BufTy).Contents (Elt F) → (⟨S32x128x128x128, .f32⟩ : BufTy).Contents (Elt F)),
    StableHlo.TRef.unary (.of main_arg0) main_call1.call0.v0 (Host.reverse [2]),
    StableHlo.TRef.unary main_call1.call0.v0 main_call1.v1 (transpose S32x128x128x128 [0, 2, 1, 3] · transposes_S32x128x128x128_S32x128x128x128_0_2_1_3),
    StableHlo.unary main_v17 main_v27 ((extractStridedSlice S32x1 ![0, 1] · slices_S32x4_S32x1_0_1) : (⟨S32x4, .f32⟩ : BufTy).Contents (Elt F) → (⟨S32x1, .f32⟩ : BufTy).Contents (Elt F)),
    StableHlo.reshape main_v27 main_v28 rfl shapeCasts_S32x1_S32,
    StableHlo.unary main_v28 main_v29 (broadcastInDim S32x1x1x1 ![0] bcast_S32_S32x1x1x1_0 : (⟨S32, .f32⟩ : BufTy).Contents (Elt F) → (⟨S32x1x1x1, .f32⟩ : BufTy).Contents (Elt F)),
    StableHlo.unary main_v29 main_v30 (broadcastInDim S32x128x128x128 ![0, 1, 2, 3] bcast_S32x1x1x1_S32x128x128x128_0_1_2_3 : (⟨S32x1x1x1, .f32⟩ : BufTy).Contents (Elt F) → (⟨S32x128x128x128, .f32⟩ : BufTy).Contents (Elt F)),
    StableHlo.binary main_v26 main_v30 main_v31 (mulf : (⟨S32x128x128x128, .f32⟩ : BufTy).Contents (Elt F) → (⟨S32x128x128x128, .f32⟩ : BufTy).Contents (Elt F) → (⟨S32x128x128x128, .f32⟩ : BufTy).Contents (Elt F)),
    StableHlo.binary main_v25 main_v31 main_v32 (addf : (⟨S32x128x128x128, .f32⟩ : BufTy).Contents (Elt F) → (⟨S32x128x128x128, .f32⟩ : BufTy).Contents (Elt F) → (⟨S32x128x128x128, .f32⟩ : BufTy).Contents (Elt F)),
    StableHlo.TRef.unary (.of main_arg0) main_call2.call0.v0 (Host.reverse [1]),
    StableHlo.TRef.unary main_call2.call0.v0 main_call2.call1.v0 (Host.reverse [2]),
    StableHlo.unary main_v17 main_v34 ((extractStridedSlice S32x1 ![0, 2] · slices_S32x4_S32x1_0_2) : (⟨S32x4, .f32⟩ : BufTy).Contents (Elt F) → (⟨S32x1, .f32⟩ : BufTy).Contents (Elt F)),
    StableHlo.reshape main_v34 main_v35 rfl shapeCasts_S32x1_S32,
    StableHlo.unary main_v35 main_v36 (broadcastInDim S32x1x1x1 ![0] bcast_S32_S32x1x1x1_0 : (⟨S32, .f32⟩ : BufTy).Contents (Elt F) → (⟨S32x1x1x1, .f32⟩ : BufTy).Contents (Elt F)),
    StableHlo.unary main_v36 main_v37 (broadcastInDim S32x128x128x128 ![0, 1, 2, 3] bcast_S32x1x1x1_S32x128x128x128_0_1_2_3 : (⟨S32x1x1x1, .f32⟩ : BufTy).Contents (Elt F) → (⟨S32x128x128x128, .f32⟩ : BufTy).Contents (Elt F)),
    StableHlo.binary main_v33 main_v37 main_v38 (mulf : (⟨S32x128x128x128, .f32⟩ : BufTy).Contents (Elt F) → (⟨S32x128x128x128, .f32⟩ : BufTy).Contents (Elt F) → (⟨S32x128x128x128, .f32⟩ : BufTy).Contents (Elt F)),
    StableHlo.binary main_v32 main_v38 main_v39 (addf : (⟨S32x128x128x128, .f32⟩ : BufTy).Contents (Elt F) → (⟨S32x128x128x128, .f32⟩ : BufTy).Contents (Elt F) → (⟨S32x128x128x128, .f32⟩ : BufTy).Contents (Elt F)),
    StableHlo.TRef.unary (.of main_arg0) main_call3.v0 (transpose S32x128x128x128 [0, 2, 1, 3] · transposes_S32x128x128x128_S32x128x128x128_0_2_1_3),
    StableHlo.TRef.unary main_call3.v0 main_call3.call0.v0 (Host.reverse [2]),
    StableHlo.unary main_v17 main_v41 ((extractStridedSlice S32x1 ![0, 3] · slices_S32x4_S32x1_0_3) : (⟨S32x4, .f32⟩ : BufTy).Contents (Elt F) → (⟨S32x1, .f32⟩ : BufTy).Contents (Elt F)),
    StableHlo.reshape main_v41 main_v42 rfl shapeCasts_S32x1_S32,
    StableHlo.unary main_v42 main_v43 (broadcastInDim S32x1x1x1 ![0] bcast_S32_S32x1x1x1_0 : (⟨S32, .f32⟩ : BufTy).Contents (Elt F) → (⟨S32x1x1x1, .f32⟩ : BufTy).Contents (Elt F)),
    StableHlo.unary main_v43 main_v44 (broadcastInDim S32x128x128x128 ![0, 1, 2, 3] bcast_S32x1x1x1_S32x128x128x128_0_1_2_3 : (⟨S32x1x1x1, .f32⟩ : BufTy).Contents (Elt F) → (⟨S32x128x128x128, .f32⟩ : BufTy).Contents (Elt F)),
    StableHlo.binary main_v40 main_v44 main_v45 (mulf : (⟨S32x128x128x128, .f32⟩ : BufTy).Contents (Elt F) → (⟨S32x128x128x128, .f32⟩ : BufTy).Contents (Elt F) → (⟨S32x128x128x128, .f32⟩ : BufTy).Contents (Elt F)),
    StableHlo.binary main_v39 main_v45 main_v46 (addf : (⟨S32x128x128x128, .f32⟩ : BufTy).Contents (Elt F) → (⟨S32x128x128x128, .f32⟩ : BufTy).Contents (Elt F) → (⟨S32x128x128x128, .f32⟩ : BufTy).Contents (Elt F)) ]

-- fifty-five binds re-associated: the rewrite under the chain recurses once per statement
set_option maxRecDepth 1024 in
/-- @main is that straight line: the called functions' definitions unfolded at their calls and the records at their fields,
    both sides are one chain of `hlo` steps once sequencing is reassociated. -/
theorem main_eq (c : Dev nD) : main (F := F) c = seq ops := by
  simp only [main, fn_rot90.body, fn_rot90_0.body, fn_rot90_1.body, fn_rot90_4.body, fn_flip.body, fn_flip_2.body,
    fn_flip_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., nullary_bufs_sub ..,
    unary_bufs_sub .., unary_bufs_sub .., reshape_bufs_sub .., unary_bufs_sub .., unary_bufs_sub .., binary_bufs_sub ..,
    binary_bufs_sub .., unary_bufs_sub .., unary_bufs_sub .., unary_bufs_sub .., reshape_bufs_sub .., unary_bufs_sub ..,
    unary_bufs_sub .., binary_bufs_sub .., binary_bufs_sub .., unary_bufs_sub .., unary_bufs_sub .., unary_bufs_sub ..,
    reshape_bufs_sub .., unary_bufs_sub .., unary_bufs_sub .., binary_bufs_sub .., binary_bufs_sub .., unary_bufs_sub ..,
    unary_bufs_sub .., unary_bufs_sub .., reshape_bufs_sub .., unary_bufs_sub .., unary_bufs_sub .., binary_bufs_sub ..,
    binary_bufs_sub ..⟩

-- the fold's term is deep: the gates occur once under each of the four columns
set_option maxRecDepth 8192 in
/-- The fold at the result buffer is `RefTerm.refOut`: each operation's result at its own buffer is its function of its
    operands' contents and at any other buffer what was there, and the term so composed — the typed references' casts
    the identity at these literal references, a reshape's result the `shapeCast` that `RefTerm.col` writes — is
    `refOut`'s own body, definition for definition. -/
theorem out_eq (V : Valuation τ sig (Elt F)) :
    after ops V (main_v46 : DevRef τ sig)
      = RefTerm.refOut (V (main_arg0 : DevRef τ sig)) (V (main_arg1 : DevRef τ sig)) (V (main_arg2 : DevRef τ sig)) := by
  after_results_simp
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of @main
    terminates with the result buffer at `RefTerm.refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = RefTerm.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v46).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's term, read at the extended reals index by index, is the gated sum of quarter turns `RotMix.out`.

  Every operation of the reference is read at one index over explicit coordinates. The layout operations (reversal,
  transposition, slice, reshape, broadcast) read their operand at one index each. The sum over rows and columns is the
  double sum over the two dropped coordinates; the product with the selector matrix is the sum over the channel; the
  maximum and the sum over the four rotations are the maximum and the sum of four terms. With the gates and the four
  turns read off, what is left is a regrouping of a sum of four products in the extended reals.
-/
import proofs.«403186_j78658031059523_4_alg».proof.Proof.Gen.ReferenceIdeal
import proofs.«403186_j78658031059523_4_alg».proof.Proof.RefTerm
import proofs.«403186_j78658031059523_4_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.SL.Sem
open scoped BigOperators

/-! ## The quarter turns' layout operations at an index -/

/-- A reversal of the column axis reads the operand at the mirrored column. -/
theorem reverse2_apply {α : Type} (x : S32x128x128x128.Idx → α) (b : Fin 32) (i j c : Fin 128) :
    Host.reverse (s := S32x128x128x128) [2] x (ix4 b i j c) = x (ix4 b i j.rev c) := by
  unfold Host.reverse
  refine congrArg x (funext fun a => ?_)
  match a with
  | ⟨0, _⟩ => rfl
  | ⟨1, _⟩ => rfl
  | ⟨2, _⟩ => rfl
  | ⟨3, _⟩ => rfl

/-- A reversal of the row axis reads the operand at the mirrored row. -/
theorem reverse1_apply {α : Type} (x : S32x128x128x128.Idx → α) (b : Fin 32) (i j c : Fin 128) :
    Host.reverse (s := S32x128x128x128) [1] x (ix4 b i j c) = x (ix4 b i.rev j c) := by
  unfold Host.reverse
  refine congrArg x (funext fun a => ?_)
  match a with
  | ⟨0, _⟩ => rfl
  | ⟨1, _⟩ => rfl
  | ⟨2, _⟩ => rfl
  | ⟨3, _⟩ => rfl

/-- The transposition of the two plane axes reads the operand with row and column exchanged. -/
theorem transpose_apply4 {α : Type} (x : S32x128x128x128.Idx → α)
    (ht : S32x128x128x128.Transposes [0, 2, 1, 3] S32x128x128x128) (b : Fin 32) (i j c : Fin 128) :
    transpose S32x128x128x128 [0, 2, 1, 3] x ht (ix4 b i j c) = x (ix4 b j i c) := by
  refine transpose_apply _ x _ _ (ix4 b j i c) fun a => ?_
  match a with
  | ⟨0, _⟩ => rfl
  | ⟨1, _⟩ => rfl
  | ⟨2, _⟩ => rfl
  | ⟨3, _⟩ => rfl

/-! ## A column of the gates spread over the batch -/

/-- Column `q` of the gates (a slice at row offset 0 and column offset `q`), reshaped and broadcast over rows, columns
    and channels, reads gate `q` of the image everywhere. -/
theorem col_apply (g : FVec Ideal S32x4 .f32) (off : Fin S32x4.rank → Nat) (h : S32x4.Slices off S32x1) (q : Fin 4)
    (h0 : off 0 = 0) (h1 : off 1 = q.val) (b : Fin 32) (i j c : Fin 128) :
    RefTerm.col g off h (ix4 b i j c) = g (ix2 b q) := by
  unfold RefTerm.col
  refine (broadcastInDim_apply _ _ _ _ (ix4 b (0 : Fin 1) (0 : Fin 1) (0 : Fin 1)) fun a => ?_).trans ?_
  · match a with
    | ⟨0, _⟩ => rfl
    | ⟨1, _⟩ => rfl
    | ⟨2, _⟩ => rfl
    | ⟨3, _⟩ => rfl
  refine (broadcastInDim_apply _ _ _ _ (ix1 b) fun a => ?_).trans ?_
  · match a with
    | ⟨0, _⟩ => rfl
  refine (shapeCast_apply _ _ _ (ix2 b (0 : Fin 1)) ?_).trans ?_
  · rw [Shape.rowMajor_val_two, Shape.rowMajor_val_one]; show b.val * 1 + 0 = b.val; omega
  refine extractStridedSlice_apply _ _ _ _ (ix2 b q) fun a => ?_
  match a with
  | ⟨0, _⟩ => show b.val = off 0 + b.val; omega
  | ⟨1, _⟩ => show q.val = off 1 + 0; omega

/-! ## The reductions and the product at an index -/

/-- The word of minus infinity is the least extended real. -/
theorem ofBits_neg_inf : Ideal.ofBits .f32 0xFF800000#32 = ⊥ := by simp [Ideal.ofBits, Ideal.ieee]

/-- The sum over rows and columns from zero, at image `b` and channel `c`, is the double sum over the row and the column:
    the indices that drop to `(b, c)` are the `(b, h, v, c)`, one for each pair `(h, v)`. -/
theorem pool_apply (X : FVec Ideal S32x128x128x128 .f32) (h' : S32x128x128x128.ReducesTo [1, 2] S32x128) (hu : 0 < S_.numel)
    (b : Fin 32) (c : Fin 128) :
    Host.reduceAdd X (constant (F := Ideal) S_ .f32 0x00000000#32) h' hu (ix2 b c)
      = ∑ h : Fin 128, ∑ v : Fin 128, X (ix4 b h v c) := by
  show Ideal.hostReduceAdd h' X (Ideal.ofBits .f32 0x00000000#32) (ix2 b c) = _
  unfold Ideal.hostReduceAdd
  rw [Ideal.ofBits_zero_f32, zero_add, ← Fintype.sum_prod_type' (f := fun h v : Fin 128 => X (ix4 b h v c))]
  have hinv : ∀ i ∈ Finset.univ.filter (fun i => h'.drop i = ix2 b c), ix4 b (i 1) (i 2) c = i := by
    intro i hi
    have hj := (Finset.mem_filter.1 hi).2
    have e0 : (i 0).val = b.val := by rw [← h'.drop_apply_val_of_eq i 0 0, hj]
    have e3 : (i 3).val = c.val := by rw [← h'.drop_apply_val_of_eq i 1 3, hj]
    funext a
    match a with
    | ⟨0, _⟩ => exact Fin.ext e0.symm
    | ⟨1, _⟩ => rfl
    | ⟨2, _⟩ => rfl
    | ⟨3, _⟩ => exact Fin.ext e3.symm
  refine Finset.sum_nbij' (fun i => (i 1, i 2)) (fun p => ix4 b p.1 p.2 c) ?_ ?_ hinv ?_ ?_
  · intro i _; exact Finset.mem_univ _
  · intro p _
    refine Finset.mem_filter.2 ⟨Finset.mem_univ _, funext fun a => Fin.ext ?_⟩
    match a with
    | ⟨0, _⟩ => exact h'.drop_apply_val_of_eq _ 0 0
    | ⟨1, _⟩ => exact h'.drop_apply_val_of_eq _ 1 3
  · intro p _; rfl
  · intro i hi; exact congrArg X (hinv i hi).symm

/-- A fold of a commutative and associative operation over the four rotations, written out. -/
theorem fold4 {α : Type} (op : α → α → α) [Std.Commutative op] [Std.Associative op] (z : α) (f : Fin 4 → α) :
    (Finset.univ : Finset (Fin 4)).fold op z f = op (f 0) (op (f 1) (op (f 2) (op (f 3) z))) := by
  rw [show (Finset.univ : Finset (Fin 4)) = {0, 1, 2, 3} from by decide,
    Finset.fold_insert (by decide), Finset.fold_insert (by decide), Finset.fold_insert (by decide), Finset.fold_singleton]

/-- Image `b` with rotation `k` put back on the dropped axis is the index `(b, k)`. -/
theorem lift4 (h : S32x4.Reduces [1] S32) (b : Fin 32) (k : Fin 4) : h.lift (ix1 b) k = ix2 b k := by
  funext a
  match a with
  | ⟨0, _⟩ => rfl
  | ⟨1, _⟩ => rfl

/-- The maximum over the four rotations from minus infinity is the maximum of the four entries. -/
theorem rowmax_apply (v : FVec Ideal S32x4 .f32) (h' : S32x4.ReducesTo [1] S32) (hu : 0 < S_.numel) (b : Fin 32) :
    Host.reduce FloatOps.maximumf v (constant (F := Ideal) S_ .f32 0xFF800000#32) h' hu (ix1 b)
      = max (max (v (ix2 b 0)) (v (ix2 b 1))) (max (v (ix2 b 2)) (v (ix2 b 3))) := by
  have h : S32x4.Reduces [1] S32 := by decide
  rw [Host.reduce_eq_fold_single _ _ _ h' h hu]
  refine (fold4 (α := EReal) max (Ideal.ofBits .f32 0xFF800000#32) (fun k : Fin 4 => v (h.lift (ix1 b) k))).trans ?_
  simp only [lift4, ofBits_neg_inf, max_bot_right]
  exact (max_assoc _ _ _).symm

/-- The sum over the four rotations from zero is the sum of the four entries. -/
theorem rowsum_apply (v : FVec Ideal S32x4 .f32) (h' : S32x4.ReducesTo [1] S32) (hu : 0 < S_.numel) (b : Fin 32) :
    Host.reduceAdd v (constant (F := Ideal) S_ .f32 0x00000000#32) h' hu (ix1 b)
      = v (ix2 b 0) + v (ix2 b 1) + v (ix2 b 2) + v (ix2 b 3) := by
  have h : S32x4.Reduces [1] S32 := by decide
  show Ideal.hostReduceAdd h' v (Ideal.ofBits .f32 0x00000000#32) (ix1 b) = _
  rw [Ideal.hostReduceAdd_single h' h, Ideal.ofBits_zero_f32, zero_add]
  show ∑ k : Fin 4, v (h.lift (ix1 b) k) = _
  rw [Fin.sum_univ_four]
  simp only [lift4]

/-- The product with the selector matrix at image `b` and rotation `j` is the sum over the channel. -/
theorem dot_apply (L : FVec Ideal S32x128 .f32) (W : FVec Ideal S128x4 .f32) (b : Fin 32) (j : Fin 4) :
    Host.dotGeneral dot_S32x128_S128x4_S32x4_1_0_0_1_n_n none L W (ix2 b j) = ∑ c : Fin 128, L (ix2 b c) * W (ix2 c j) :=
  StackMember.dotGeneral_plain_apply (m := 32) (n := 4) (k := 128) none L W b j

/-! ## The broadcasts of the selector at an index -/

/-- A scalar constant broadcast to any shape reads the extended real its word encodes. -/
theorem splat_apply {t : Shape} (hb : S_.BroadcastsInDim t (![] : Fin 0 → Fin t.rank)) (w : BitVec 32) (y : t.Idx) :
    broadcastInDim t ![] hb (constant (F := Ideal) S_ .f32 w) y = Ideal.ofBits .f32 w := rfl

/-- The bias laid along every image reads its entry at the rotation. -/
theorem bias_apply (B : FVec Ideal S4 .f32) (h1 : S4.BroadcastsInDim S1x4 (![1] : Fin 1 → Fin S1x4.rank))
    (h2 : S1x4.BroadcastsInDim S32x4 (![0, 1] : Fin 2 → Fin S32x4.rank)) (b : Fin 32) (j : Fin 4) :
    broadcastInDim S32x4 ![0, 1] h2 (broadcastInDim S1x4 ![1] h1 B) (ix2 b j) = B (ix1 j) := by
  refine (broadcastInDim_apply _ _ _ _ (ix2 (0 : Fin 1) j) fun a => ?_).trans ?_
  · match a with
    | ⟨0, _⟩ => rfl
    | ⟨1, _⟩ => rfl
  refine broadcastInDim_apply _ _ _ _ (ix1 j) fun a => ?_
  match a with
  | ⟨0, _⟩ => rfl

/-- A per-image value laid along the four rotations reads the image's value. -/
theorem spread_apply (v : FVec Ideal S32 .f32) (h1 : S32.BroadcastsInDim S32x1 (![0] : Fin 1 → Fin S32x1.rank))
    (h2 : S32x1.BroadcastsInDim S32x4 (![0, 1] : Fin 2 → Fin S32x4.rank)) (b : Fin 32) (j : Fin 4) :
    broadcastInDim S32x4 ![0, 1] h2 (broadcastInDim S32x1 ![0] h1 v) (ix2 b j) = v (ix1 b) := by
  refine (broadcastInDim_apply _ _ _ _ (ix2 b (0 : Fin 1)) fun a => ?_).trans ?_
  · match a with
    | ⟨0, _⟩ => rfl
    | ⟨1, _⟩ => rfl
  refine broadcastInDim_apply _ _ _ _ (ix1 b) fun a => ?_
  match a with
  | ⟨0, _⟩ => rfl

/-! ## The gates in stages -/

/-- The logits of every image: the channel means times the selector matrix, plus the bias. -/
def logits (X : FVec Ideal S32x128x128x128 .f32) (W : FVec Ideal S128x4 .f32) (B : FVec Ideal S4 .f32) : FVec Ideal S32x4 .f32 :=
  addf
    (Host.dotGeneral dot_S32x128_S128x4_S32x4_1_0_0_1_n_n none
      (Host.divf (Host.reduceAdd X (constant S_ .f32 0x00000000#32) reducesTo_S32x128x128x128_S32x128_d1_2 h_S_)
        (broadcastInDim S32x128 ![] bcast_S_S32x128 (constant S_ .f32 0x46800000#32))) W)
    (broadcastInDim S32x4 ![0, 1] bcast_S1x4_S32x4_0_1 (broadcastInDim S1x4 ![1] bcast_S4_S1x4_1 B))

/-- The largest logit of every image (the maximum with a minus infinity splat on top, as the reference writes it). -/
def tops (v : FVec Ideal S32x4 .f32) : FVec Ideal S32 .f32 :=
  maximumf (broadcastInDim S32 ![] bcast_S_S32 (constant S_ .f32 0xFF800000#32))
    (Host.reduce FloatOps.maximumf v (constant S_ .f32 0xFF800000#32) reducesTo_S32x4_S32_d1 h_S_)

/-- The shifted exponentials. -/
def exps (v : FVec Ideal S32x4 .f32) : FVec Ideal S32x4 .f32 :=
  Host.exp (subf v (broadcastInDim S32x4 ![0, 1] bcast_S32x1_S32x4_0_1 (broadcastInDim S32x1 ![0] bcast_S32_S32x1_0 (tops v))))

/-- Each entry over the sum of its image's four entries. -/
def normalize (v : FVec Ideal S32x4 .f32) : FVec Ideal S32x4 .f32 :=
  Host.divf v (broadcastInDim S32x4 ![0, 1] bcast_S32x1_S32x4_0_1 (broadcastInDim S32x1 ![0] bcast_S32_S32x1_0
    (Host.reduceAdd v (constant S_ .f32 0x00000000#32) reducesTo_S32x4_S32_d1 h_S_)))

/-- The reference's gates are these stages composed. -/
theorem gates_eq (X : FVec Ideal S32x128x128x128 .f32) (W : FVec Ideal S128x4 .f32) (B : FVec Ideal S4 .f32) :
    RefTerm.gates (F := Ideal) X W B = normalize (exps (logits X W B)) := rfl

section Stages
variable (X : FVec Ideal S32x128x128x128 .f32) (W : FVec Ideal S128x4 .f32) (B : FVec Ideal S4 .f32) (b : Fin 32)

theorem logits_apply (q : Fin 4) :
    logits X W B (ix2 b q)
      = Cert.RotMix.logit (fun h v c => X (ix4 b h v c)) (fun c j => W (ix2 c j)) (fun j => B (ix1 j)) q := by
  unfold logits
  rw [addf_apply, dot_apply, bias_apply]
  unfold Cert.RotMix.logit Cert.RotMix.pooled
  refine congrArg (· + B (ix1 q)) (Finset.sum_congr rfl fun c _ => ?_)
  refine congrArg (· * W (ix2 c q)) ?_
  show Ideal.div (Host.reduceAdd X _ _ _ (ix2 b c)) _ = _
  rw [pool_apply]
  rfl

theorem tops_apply (v : FVec Ideal S32x4 .f32) :
    tops v (ix1 b) = max (max (v (ix2 b 0)) (v (ix2 b 1))) (max (v (ix2 b 2)) (v (ix2 b 3))) := by
  unfold tops
  rw [maximumf_apply, splat_apply, rowmax_apply, ofBits_neg_inf, max_bot_left]

theorem exps_apply (v : FVec Ideal S32x4 .f32) (q : Fin 4) :
    exps v (ix2 b q) = Ideal.exp (v (ix2 b q) - tops v (ix1 b)) := by
  unfold exps
  show Ideal.exp (subf v _ (ix2 b q)) = _
  rw [subf_apply, spread_apply]

theorem normalize_apply (v : FVec Ideal S32x4 .f32) (q : Fin 4) :
    normalize v (ix2 b q) = Ideal.div (v (ix2 b q)) (v (ix2 b 0) + v (ix2 b 1) + v (ix2 b 2) + v (ix2 b 3)) := by
  unfold normalize
  show Ideal.div (v (ix2 b q)) _ = _
  rw [spread_apply, rowsum_apply]

/-- The reference's gate of image `b` for rotation `q` is the softmax gate of that image. -/
theorem gates_apply (q : Fin 4) :
    RefTerm.gates (F := Ideal) X W B (ix2 b q)
      = Cert.RotMix.gate (fun h v c => X (ix4 b h v c)) (fun c j => W (ix2 c j)) (fun j => B (ix1 j)) q := by
  rw [gates_eq, normalize_apply]
  simp only [exps_apply, tops_apply, logits_apply]
  rfl

end Stages

/-! ## The result -/

/-- A sum of four terms onto zero, regrouped as the first with the third plus the second with the fourth, each product
    commuted: additions and multiplications of extended reals commute and additions associate. -/
theorem regroup (x r1 r2 r3 g0 g1 g2 g3 : EReal) :
    (((0 + x * g0) + r1 * g1) + r2 * g2) + r3 * g3 = (g0 * x + g2 * r2) + (g1 * r1 + g3 * r3) := by
  rw [zero_add, mul_comm x g0, mul_comm r1 g1, mul_comm r2 g2, mul_comm r3 g3, add_assoc (g0 * x + g1 * r1),
    add_add_add_comm]

theorem refOut_eq (X : FVec Ideal S32x128x128x128 .f32) (W : FVec Ideal S128x4 .f32) (B : FVec Ideal S4 .f32) :
    RefTerm.refOut (F := Ideal) X W B = Cert.RotMix.out X W B := by
  funext y
  obtain ⟨b, i, j, c, rfl⟩ : ∃ (b : Fin 32) (i j c : Fin 128), y = ix4 b i j c := ⟨y 0, y 1, y 2, y 3, eq_ix4 y⟩
  have c0 := col_apply (RefTerm.gates (F := Ideal) X W B) ![0, 0] slices_S32x4_S32x1_0_0 0 rfl rfl b i j c
  have c1 := col_apply (RefTerm.gates (F := Ideal) X W B) ![0, 1] slices_S32x4_S32x1_0_1 1 rfl rfl b i j c
  have c2 := col_apply (RefTerm.gates (F := Ideal) X W B) ![0, 2] slices_S32x4_S32x1_0_2 2 rfl rfl b i j c
  have c3 := col_apply (RefTerm.gates (F := Ideal) X W B) ![0, 3] slices_S32x4_S32x1_0_3 3 rfl rfl b i j c
  rw [gates_apply] at c0 c1 c2 c3
  unfold RefTerm.refOut
  simp only [addf_apply, mulf_apply]
  rw [c0, c1, c2, c3, splat_apply, Ideal.ofBits_zero_f32, transpose_apply4, reverse2_apply, reverse2_apply, reverse1_apply,
    reverse2_apply, transpose_apply4, regroup]
  rfl

end Cert.ReferenceIdeal.RefValue

end
-- ==== Proof.lean ====
/-
  The certificate. The kernel gates the four quarter turns of each image with a softmax over a pooled selector and adds
  them; the reference does the same with jnp's rot90. Both results are `RotMix.out` of the arguments: the kernel's by its
  run read block by block (the selector, the reversals built from slices, the transposition: KWeights, KFlipsRows,
  KFlipsCols, KBlock, KValue), the reference's by its straight-line run (RefRun) read index by index (RefValue). The two
  programs differ only in how sums and maxima are grouped, so nothing of the inputs is used beyond their being the same.
  The frames are the generated frame runs; the idealization rewrote nothing, so `preserves` is trivial.
-/
import proofs.«403186_j78658031059523_4_alg».proof.Defs
import proofs.«403186_j78658031059523_4_alg».proof.Proof.Gen.Kernel
import proofs.«403186_j78658031059523_4_alg».proof.Proof.Gen.Kernel.Skeleton
import proofs.«403186_j78658031059523_4_alg».proof.Proof.Gen.Kernel.Launch
import proofs.«403186_j78658031059523_4_alg».proof.Proof.Gen.Kernel.Points
import proofs.«403186_j78658031059523_4_alg».proof.Proof.Gen.Kernel.Frame
import proofs.«403186_j78658031059523_4_alg».proof.Proof.Gen.KernelIdeal
import proofs.«403186_j78658031059523_4_alg».proof.Proof.Gen.KernelIdeal.Skeleton
import proofs.«403186_j78658031059523_4_alg».proof.Proof.Gen.KernelIdeal.Launch
import proofs.«403186_j78658031059523_4_alg».proof.Proof.Gen.KernelIdeal.Points
import proofs.«403186_j78658031059523_4_alg».proof.Proof.Gen.KernelIdeal.Frame
import proofs.«403186_j78658031059523_4_alg».proof.Proof.Gen.KernelIdeal.Value
import proofs.«403186_j78658031059523_4_alg».proof.Proof.Gen.ReferenceIdeal
import proofs.«403186_j78658031059523_4_alg».proof.Proof.Gen.Pre_finite_inputs
import proofs.«403186_j78658031059523_4_alg».proof.Proof.KValue
import proofs.«403186_j78658031059523_4_alg».proof.Proof.RefRun
import proofs.«403186_j78658031059523_4_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the gated sum of quarter turns of the (agreeing) arguments. -/
theorem algebraic : Cert.algebraic_KernelIdeal_ReferenceIdeal := by
  intro m ρ m' ρ' _ hagree
  refine ⟨fun c => Cert.RotMix.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefValue.refOut_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
